-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v2)) (v1 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_v1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v27) = v0 c
          ∧ r.2.mem ((c.tc : Thread Cert.ReferenceIdeal.nD Cert.ReferenceIdeal.τ).loc Cert.ReferenceIdeal.main_v5) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x8192 : Shape := ⟨2, ![8192, 8192]⟩
abbrev S8192x128 : Shape := ⟨2, ![8192, 128]⟩
abbrev S64x128 : Shape := ⟨2, ![64, 128]⟩
abbrev S64 : Shape := ⟨1, ![64]⟩
abbrev S_ : Shape := ⟨0, ![]⟩

class Facts : Prop where
  bcast_S_S8192x8192 : S_.BroadcastsInDim S8192x8192 (![] : Fin 0 → Fin S8192x8192.rank)
  reducesTo_S8192x8192_S_d0_1 : S8192x8192.ReducesTo [0, 1] S_
  h_S_ : 0 < S_.numel
  bcast_S_S8192x128 : S_.BroadcastsInDim S8192x128 (![] : Fin 0 → Fin S8192x128.rank)
  reducesTo_S8192x128_S_d0_1 : S8192x128.ReducesTo [0, 1] S_
  bcast_S_S64x128 : S_.BroadcastsInDim S64x128 (![] : Fin 0 → Fin S64x128.rank)
  reducesTo_S64x128_S_d0_1 : S64x128.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg4 : FVec F S64 .f32) (main_v13 : IVec S_ 1) (main_v16 : IVec S64x128 1) : IVec S_ 1 :=
  let main_c_5 : IVec S_ 1 := constantI S_ 1 1#1
  let main_v17 : IVec S_ 1 := (fun x v => Host.reduce IntOp.andi x v reducesTo_S64x128_S_d0_1 h_S_) main_v16 main_c_5
  let main_v18 : IVec S_ 1 := andi main_v13 main_v17
  let main_v19 : FVec F S64 .f32 := Host.absf main_arg4
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  main_v23

def fn {F : FTy → Type} [FloatOps F] (main_arg0 : FVec F S8192x8192 .f32) (main_arg1 : FVec F S8192x128 .f32) (main_arg2 : FVec F S8192x8192 .f32) (main_arg3 : FVec F S64x128 .f32) (main_arg4 : FVec F S64 .f32) : IVec S_ 1 :=
  let main_v0 : FVec F S8192x8192 .f32 := Host.absf main_arg0
  let main_cst : FVec F S_ .f32 := constant S_ .f32 0x7F800000#32
  let main_v1 : FVec F S8192x8192 .f32 := broadcastInDim S8192x8192 ![] bcast_S_S8192x8192 main_cst
  let main_v2 : IVec S8192x8192 1 := cmpf .olt main_v0 main_v1
  let main_c : IVec S_ 1 := constantI S_ 1 1#1
  let main_v3 : IVec S_ 1 := (fun x v => Host.reduce IntOp.andi x v reducesTo_S8192x8192_S_d0_1 h_S_) main_v2 main_c
  let main_v4 : FVec F S8192x128 .f32 := Host.absf main_arg1
  let main_cst_0 : FVec F S_ .f32 := constant S_ .f32 0x7F800000#32
  let main_v5 : FVec F S8192x128 .f32 := broadcastInDim S8192x128 ![] bcast_S_S8192x128 main_cst_0
  let main_v6 : IVec S8192x128 1 := cmpf .olt main_v4 main_v5
  let main_c_1 : IVec S_ 1 := constantI S_ 1 1#1
  let main_v7 : IVec S_ 1 := (fun x v => Host.reduce IntOp.andi x v reducesTo_S8192x128_S_d0_1 h_S_) main_v6 main_c_1
  let main_v8 : IVec S_ 1 := andi main_v3 main_v7
  let main_v9 : FVec F S8192x8192 .f32 := Host.absf main_arg2
  let main_cst_2 : FVec F S_ .f32 := constant S_ .f32 0x7F800000#32
  let main_v10 : FVec F S8192x8192 .f32 := broadcastInDim S8192x8192 ![] bcast_S_S8192x8192 main_cst_2
  let main_v11 : IVec S8192x8192 1 := cmpf .olt main_v9 main_v10
  let main_c_3 : IVec S_ 1 := constantI S_ 1 1#1
  let main_v12 : IVec S_ 1 := (fun x v => Host.reduce IntOp.andi x v reducesTo_S8192x8192_S_d0_1 h_S_) main_v11 main_c_3
  let main_v13 : IVec S_ 1 := andi main_v8 main_v12
  let main_v14 : FVec F S64x128 .f32 := Host.absf main_arg3
  let main_cst_4 : FVec F S_ .f32 := constant S_ .f32 0x7F800000#32
  let main_v15 : FVec F S64x128 .f32 := broadcastInDim S64x128 ![] bcast_S_S64x128 main_cst_4
  let main_v16 : IVec S64x128 1 := cmpf .olt main_v14 main_v15
  fn_part1 (F := F) main_arg4 main_v13 main_v16
-- ==== Kernel.lean ====
abbrev S8192x8192 : Shape := ⟨2, ![8192, 8192]⟩
abbrev S8192x128 : Shape := ⟨2, ![8192, 128]⟩
abbrev S64x128 : Shape := ⟨2, ![64, 128]⟩
abbrev S64 : Shape := ⟨1, ![64]⟩
abbrev S1x64 : Shape := ⟨2, ![1, 64]⟩
abbrev S8192x64 : Shape := ⟨2, ![8192, 64]⟩
abbrev S256x8192 : Shape := ⟨2, ![256, 8192]⟩
abbrev S256x64 : Shape := ⟨2, ![256, 64]⟩
abbrev S256x128 : Shape := ⟨2, ![256, 128]⟩
abbrev S128x64 : Shape := ⟨2, ![128, 64]⟩
abbrev S1024x64 : Shape := ⟨2, ![1024, 64]⟩
abbrev S1024x1024 : Shape := ⟨2, ![1024, 1024]⟩
abbrev S1024 : Shape := ⟨1, ![1024]⟩
abbrev S1024x1 : Shape := ⟨2, ![1024, 1]⟩
abbrev S1x1024 : Shape := ⟨2, ![1, 1024]⟩

abbrev nBuf : Space → Nat
  | .hbm => 8
  | .vmem => 15
  | .smem => 0
  | _ => 0

abbrev bufTy : (tb : Table) → Fin (tcTables nBuf tb) → BufTy
  | .hbm, ⟨0, _⟩ => ⟨S8192x8192, .f32⟩
  | .hbm, ⟨1, _⟩ => ⟨S8192x128, .f32⟩
  | .hbm, ⟨2, _⟩ => ⟨S8192x8192, .f32⟩
  | .hbm, ⟨3, _⟩ => ⟨S64x128, .f32⟩
  | .hbm, ⟨4, _⟩ => ⟨S64, .f32⟩
  | .hbm, ⟨5, _⟩ => ⟨S1x64, .f32⟩
  | .hbm, ⟨6, _⟩ => ⟨S8192x64, .f32⟩
  | .hbm, ⟨7, _⟩ => ⟨S8192x8192, .f32⟩
  | .local _ .vmem, ⟨0, _⟩ => ⟨S256x8192, .f32⟩
  | .local _ .vmem, ⟨1, _⟩ => ⟨S256x8192, .f32⟩
  | .local _ .vmem, ⟨2, _⟩ => ⟨S8192x128, .f32⟩
  | .local _ .vmem, ⟨3, _⟩ => ⟨S64x128, .f32⟩
  | .local _ .vmem, ⟨4, _⟩ => ⟨S1x64, .f32⟩
  | .local _ .vmem, ⟨5, _⟩ => ⟨S256x64, .f32⟩
  | .local _ .vmem, ⟨6, _⟩ => ⟨S256x64, .f32⟩
  | .local _ .vmem, ⟨7, _⟩ => ⟨S1024x64, .f32⟩
  | .local _ .vmem, ⟨8, _⟩ => ⟨S1024x64, .f32⟩
  | .local _ .vmem, ⟨9, _⟩ => ⟨S1024x64, .f32⟩
  | .local _ .vmem, ⟨10, _⟩ => ⟨S1024x64, .f32⟩
  | .local _ .vmem, ⟨11, _⟩ => ⟨S1024x1024, .f32⟩
  | .local _ .vmem, ⟨12, _⟩ => ⟨S1024x1024, .f32⟩
  | .local _ .vmem, ⟨13, _⟩ => ⟨S1024x1024, .f32⟩
  | .local _ .vmem, ⟨14, _⟩ => ⟨S1024x1024, .f32⟩
  | _, _ => ⟨S8192x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg2_1 : Ref sig .tc := ⟨.vmem, 12, rfl⟩
abbrev cc1_stg3_0 : Ref sig .tc := ⟨.vmem, 13, rfl⟩
abbrev cc1_stg3_1 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem2_1 : DmaSem sig := 12
abbrev cc1_sem3_0 : DmaSem sig := 13
abbrev cc1_sem3_1 : DmaSem sig := 14

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x8192 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8192x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S64x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨2, ![8, 8], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage1_0 : Fin 2 → Memref sig .tc .vmem S1024x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S1024x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S1024x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev stage1_3 : Fin 2 → Memref sig .tc .vmem S1024x1024 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

class Facts₀ : Prop where
  shapeCasts_S64_S1x64 : S64.ShapeCasts S1x64
  inb_S256x8192_S256x8192_0_0 : ∀ a, (![0, 0] : Fin 2 → Nat) a + S256x8192.size a ≤ S256x8192.size a
  h_S256x8192 : 0 < S256x8192.numel
  bitsLt_bf16_f32 : FTy.bits .bf16 < FTy.bits .f32
  inb_S8192x128_S8192x128_0_0 : ∀ a, (![0, 0] : Fin 2 → Nat) a + S8192x128.size a ≤ S8192x128.size a
  h_S8192x128 : 0 < S8192x128.numel
  inb_S64x128_S64x128_0_0 : ∀ a, (![0, 0] : Fin 2 → Nat) a + S64x128.size a ≤ S64x128.size a
  h_S64x128 : 0 < S64x128.numel
  transposes_S64x128_p1_0_S128x64 : S64x128.Transposes [1, 0] S128x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S256x64 : S1x64.Broadcasts S256x64
  inb_S256x64_S256x64_0_0 : ∀ a, (![0, 0] : Fin 2 → Nat) a + S256x64.size a ≤ S256x64.size a
  h_S256x64 : 0 < S256x64.numel
  inb_S1024x64_S1024x64_0_0 : ∀ a, (![0, 0] : Fin 2 → Nat) a + S1024x64.size a ≤ S1024x64.size a
  h_S1024x64 : 0 < S1024x64.numel
  shapeCasts_S1024x64_S1024x64 : S1024x64.ShapeCasts S1024x64
  reduces_S1024x64_S1024 : S1024x64.Reduces [1] S1024
  shapeCasts_S1024_S1024x1 : S1024.ShapeCasts S1024x1
  transposes_S1024x1_p1_0_S1x1024 : S1024x1.Transposes [1, 0] S1x1024
  broadcasts_S1024x1_S1024x1024 : S1024x1.Broadcasts S1024x1024
  broadcasts_S1x1024_S1024x1024 : S1x1024.Broadcasts S1024x1024
  inb_S1024x1024_S1024x1024_0_0 : ∀ a, (![0, 0] : Fin 2 → Nat) a + S1024x1024.size a ≤ S1024x1024.size a
  h_S1024x1024 : 0 < S1024x1024.numel
  dot_S256x8192_S8192x128_S256x128_1_0_0_1_n_n_wf : DotDims.WF S256x8192 S8192x128 S256x128 [1] [0] [0] [1] [] []
  dot_S256x128_S128x64_S256x64_1_0_0_1_n_n_wf : DotDims.WF S256x128 S128x64 S256x64 [1] [0] [0] [1] [] []
  dot_S1024x64_S1024x64_S1024x1024_1_1_0_0_n_n_wf : DotDims.WF S1024x64 S1024x64 S1024x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x8192.size a ≤ S8192x8192.size a
  hwx0_0 : ∀ i : grid0.Coords, EltTy.bits .f32 = 32 ∨ (Rect.block (s := S8192x8192) S256x8192.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S8192x128.size a ≤ S8192x128.size a
  hwx0_1 : ∀ i : grid0.Coords, EltTy.bits .f32 = 32 ∨ (Rect.block (s := S8192x128) S8192x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x128.size a ≤ S64x128.size a
  hwx0_2 : ∀ i : grid0.Coords, EltTy.bits .f32 = 32 ∨ (Rect.block (s := S64x128) S64x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x64.size a ≤ S1x64.size a
  hwx0_3 : ∀ i : grid0.Coords, EltTy.bits .f32 = 32 ∨ (Rect.block (s := S1x64) S1x64.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S256x64.size a ≤ S8192x64.size a
  hwx0_4 : ∀ i : grid0.Coords, EltTy.bits .f32 = 32 ∨ (Rect.block (s := S8192x64) S256x64.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x64.size a ≤ S8192x64.size a
  hwx1_0 : ∀ i : grid1.Coords, EltTy.bits .f32 = 32 ∨ (Rect.block (s := S8192x64) S1024x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1024x64.size a ≤ S8192x64.size a
  hwx1_1 : ∀ i : grid1.Coords, EltTy.bits .f32 = 32 ∨ (Rect.block (s := S8192x64) S1024x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1024x1024.size a ≤ S8192x8192.size a
  hwx1_2 : ∀ i : grid1.Coords, EltTy.bits .f32 = 32 ∨ (Rect.block (s := S8192x8192) S1024x1024.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1024x1024.size a ≤ S8192x8192.size a
  hwx1_3 : ∀ i : grid1.Coords, EltTy.bits .f32 = 32 ∨ (Rect.block (s := S8192x8192) S1024x1024.size (cc1_transform_3 i) (hinb1_3 i)).WholeWords (EltTy.packing .f32)

variable [Facts₀]

def dot_S256x8192_S8192x128_S256x128_1_0_0_1_n_n : DotDims S256x8192 S8192x128 S256x128 where
  lhsContracting := [1]
  rhsContracting := [0]
  lhsNonContracting := [0]
  rhsNonContracting := [1]
  lhsBatch := []
  rhsBatch := []
  wf := dot_S256x8192_S8192x128_S256x128_1_0_0_1_n_n_wf
def dot_S256x128_S128x64_S256x64_1_0_0_1_n_n : DotDims S256x128 S128x64 S256x64 where
  lhsContracting := [1]
  rhsContracting := [0]
  lhsNonContracting := [0]
  rhsNonContracting := [1]
  lhsBatch := []
  rhsBatch := []
  wf := dot_S256x128_S128x64_S256x64_1_0_0_1_n_n_wf
def dot_S1024x64_S1024x64_S1024x1024_1_1_0_0_n_n : DotDims S1024x64 S1024x64 S1024x1024 where
  lhsContracting := [1]
  rhsContracting := [1]
  lhsNonContracting := [0]
  rhsNonContracting := [0]
  lhsBatch := []
  rhsBatch := []
  wf := dot_S1024x64_S1024x64_S1024x1024_1_1_0_0_n_n_wf

abbrev win0_0 : Pipeline.Window sig grid0 :=
  Pipeline.Window.ofSpec (Memref.whole main_arg0) S256x8192.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S8192x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S64x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v1) S256x64.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_v1) S1024x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v1) S1024x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg2) S1024x1024.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v2) S1024x1024.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S8192x8192 : Shape := ⟨2, ![8192, 8192]⟩
abbrev S8192x128 : Shape := ⟨2, ![8192, 128]⟩
abbrev S64x128 : Shape := ⟨2, ![64, 128]⟩
abbrev S64 : Shape := ⟨1, ![64]⟩
abbrev S128x64 : Shape := ⟨2, ![128, 64]⟩
abbrev S8192x64 : Shape := ⟨2, ![8192, 64]⟩
abbrev S1x64 : Shape := ⟨2, ![1, 64]⟩
abbrev S_ : Shape := ⟨0, ![]⟩
abbrev S8192 : Shape := ⟨1, ![8192]⟩
abbrev S8192x1 : Shape := ⟨2, ![8192, 1]⟩
abbrev S1x8192 : Shape := ⟨2, ![1, 8192]⟩
abbrev S64x8192 : Shape := ⟨2, ![64, 8192]⟩

abbrev nBuf : Space → Nat
  | .hbm => 44
  | .vmem => 0
  | .smem => 0
  | _ => 0

abbrev bufTy : (tb : Table) → Fin (tcTables nBuf tb) → BufTy
  | .hbm, ⟨0, _⟩ => ⟨S8192x8192, .f32⟩
  | .hbm, ⟨1, _⟩ => ⟨S8192x128, .f32⟩
  | .hbm, ⟨2, _⟩ => ⟨S8192x8192, .f32⟩
  | .hbm, ⟨3, _⟩ => ⟨S64x128, .f32⟩
  | .hbm, ⟨4, _⟩ => ⟨S64, .f32⟩
  | .hbm, ⟨5, _⟩ => ⟨S8192x128, .f32⟩
  | .hbm, ⟨6, _⟩ => ⟨S128x64, .f32⟩
  | .hbm, ⟨7, _⟩ => ⟨S8192x64, .f32⟩
  | .hbm, ⟨8, _⟩ => ⟨S1x64, .f32⟩
  | .hbm, ⟨9, _⟩ => ⟨S8192x64, .f32⟩
  | .hbm, ⟨10, _⟩ => ⟨S8192x64, .f32⟩
  | .hbm, ⟨11, _⟩ => ⟨S8192x64, .f32⟩
  | .hbm, ⟨12, _⟩ => ⟨S_, .f32⟩
  | .hbm, ⟨13, _⟩ => ⟨S8192, .f32⟩
  | .hbm, ⟨14, _⟩ => ⟨S8192x1, .f32⟩
  | .hbm, ⟨15, _⟩ => ⟨S1x8192, .f32⟩
  | .hbm, ⟨16, _⟩ => ⟨S8192x8192, .f32⟩
  | .hbm, ⟨17, _⟩ => ⟨S8192x8192, .f32⟩
  | .hbm, ⟨18, _⟩ => ⟨S8192x8192, .f32⟩
  | .hbm, ⟨19, _⟩ => ⟨S64x8192, .f32⟩
  | .hbm, ⟨20, _⟩ => ⟨S8192x8192, .f32⟩
  | .hbm, ⟨21, _⟩ => ⟨S_, .f32⟩
  | .hbm, ⟨22, _⟩ => ⟨S8192x8192, .f32⟩
  | .hbm, ⟨23, _⟩ => ⟨S8192x8192, .f32⟩
  | .hbm, ⟨24, _⟩ => ⟨S8192x8192, .f32⟩
  | .hbm, ⟨25, _⟩ => ⟨S_, .f32⟩
  | .hbm, ⟨26, _⟩ => ⟨S8192x8192, .f32⟩
  | .hbm, ⟨27, _⟩ => ⟨S8192x8192, .f32⟩
  | .hbm, ⟨28, _⟩ => ⟨S_, .f32⟩
  | .hbm, ⟨29, _⟩ => ⟨S8192x8192, .f32⟩
  | .hbm, ⟨30, _⟩ => ⟨S8192x8192, .i1⟩
  | .hbm, ⟨31, _⟩ => ⟨S_, .f32⟩
  | .hbm, ⟨32, _⟩ => ⟨S_, .f32⟩
  | .hbm, ⟨33, _⟩ => ⟨S8192x8192, .f32⟩
  | .hbm, ⟨34, _⟩ => ⟨S8192x8192, .f32⟩
  | .hbm, ⟨35, _⟩ => ⟨S_, .f32⟩
  | .hbm, ⟨36, _⟩ => ⟨S8192x8192, .f32⟩
  | .hbm, ⟨37, _⟩ => ⟨S8192x8192, .i1⟩
  | .hbm, ⟨38, _⟩ => ⟨S8192x8192, .f32⟩
  | .hbm, ⟨39, _⟩ => ⟨S_, .f32⟩
  | .hbm, ⟨40, _⟩ => ⟨S_, .f32⟩
  | .hbm, ⟨41, _⟩ => ⟨S8192x8192, .f32⟩
  | .hbm, ⟨42, _⟩ => ⟨S8192x8192, .f32⟩
  | .hbm, ⟨43, _⟩ => ⟨S8192x8192, .f32⟩
  | _, _ => ⟨S8192x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_cst_0 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_1 : Ref sig .tc := ⟨.hbm, 25, rfl⟩
abbrev main_v18 : Ref sig .tc := ⟨.hbm, 26, rfl⟩
abbrev main_v19 : Ref sig .tc := ⟨.hbm, 27, rfl⟩
abbrev main_cst_2 : Ref sig .tc := ⟨.hbm, 28, rfl⟩
abbrev main_v20 : Ref sig .tc := ⟨.hbm, 29, rfl⟩
abbrev main_v21 : Ref sig .tc := ⟨.hbm, 30, rfl⟩
abbrev main_cst_3 : Ref sig .tc := ⟨.hbm, 31, rfl⟩
abbrev main_call0_v0 : Ref sig .tc := ⟨.hbm, 32, rfl⟩
abbrev main_call0_v1 : Ref sig .tc := ⟨.hbm, 33, rfl⟩
abbrev main_v22 : Ref sig .tc := ⟨.hbm, 34, rfl⟩
abbrev main_cst_4 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_cst_5 : Ref sig .tc := ⟨.hbm, 39, rfl⟩
abbrev main_call1_v0 : Ref sig .tc := ⟨.hbm, 40, rfl⟩
abbrev main_call1_v1 : Ref sig .tc := ⟨.hbm, 41, rfl⟩
abbrev main_v26 : Ref sig .tc := ⟨.hbm, 42, rfl⟩
abbrev main_v27 : Ref sig .tc := ⟨.hbm, 43, rfl⟩

abbrev nD : Nat := 1
abbrev τ : Topo := Topo.v7x

variable {F : FTy → Type} [FloatOps F]

class Facts₀ : Prop where
  transposes_S64x128_S128x64_1_0 : S64x128.Transposes [1, 0] S128x64
  bcast_S64_S1x64_1 : S64.BroadcastsInDim S1x64 (![1] : Fin 1 → Fin S1x64.rank)
  bcast_S1x64_S8192x64_0_1 : S1x64.BroadcastsInDim S8192x64 (![0, 1] : Fin 2 → Fin S8192x64.rank)
  reducesTo_S8192x64_S8192_d1 : S8192x64.ReducesTo [1] S8192
  h_S_ : 0 < S_.numel
  bcast_S8192_S8192x1_0 : S8192.BroadcastsInDim S8192x1 (![0] : Fin 1 → Fin S8192x1.rank)
  bcast_S8192_S1x8192_1 : S8192.BroadcastsInDim S1x8192 (![1] : Fin 1 → Fin S1x8192.rank)
  bcast_S8192x1_S8192x8192_0_1 : S8192x1.BroadcastsInDim S8192x8192 (![0, 1] : Fin 2 → Fin S8192x8192.rank)
  bcast_S1x8192_S8192x8192_0_1 : S1x8192.BroadcastsInDim S8192x8192 (![0, 1] : Fin 2 → Fin S8192x8192.rank)
  transposes_S8192x64_S64x8192_1_0 : S8192x64.Transposes [1, 0] S64x8192
  bcast_S_S8192x8192 : S_.BroadcastsInDim S8192x8192 (![] : Fin 0 → Fin S8192x8192.rank)
  dot_S8192x8192_S8192x128_S8192x128_1_0_0_1_n_n_wf : DotDims.WF S8192x8192 S8192x128 S8192x128 [1] [0] [0] [1] [] []
  dot_S8192x128_S128x64_S8192x64_1_0_0_1_n_n_wf : DotDims.WF S8192x128 S128x64 S8192x64 [1] [0] [0] [1] [] []
  dot_S8192x64_S64x8192_S8192x8192_1_0_0_1_n_n_wf : DotDims.WF S8192x64 S64x8192 S8192x8192 [1] [0] [0] [1] [] []

variable [Facts₀]

def dot_S8192x8192_S8192x128_S8192x128_1_0_0_1_n_n : DotDims S8192x8192 S8192x128 S8192x128 where
  lhsContracting := [1]
  rhsContracting := [0]
  lhsNonContracting := [0]
  rhsNonContracting := [1]
  lhsBatch := []
  rhsBatch := []
  wf := dot_S8192x8192_S8192x128_S8192x128_1_0_0_1_n_n_wf
def dot_S8192x128_S128x64_S8192x64_1_0_0_1_n_n : DotDims S8192x128 S128x64 S8192x64 where
  lhsContracting := [1]
  rhsContracting := [0]
  lhsNonContracting := [0]
  rhsNonContracting := [1]
  lhsBatch := []
  rhsBatch := []
  wf := dot_S8192x128_S128x64_S8192x64_1_0_0_1_n_n_wf
def dot_S8192x64_S64x8192_S8192x8192_1_0_0_1_n_n : DotDims S8192x64 S64x8192 S8192x8192 where
  lhsContracting := [1]
  rhsContracting := [0]
  lhsNonContracting := [0]
  rhsNonContracting := [1]
  lhsBatch := []
  rhsBatch := []
  wf := dot_S8192x64_S64x8192_S8192x8192_1_0_0_1_n_n_wf

class Facts : Prop extends Facts₀ where

variable [Facts]
-- ==== Proof.KernelBody0.lean ====
/-
  The first kernel (graph aggregation fused with the linear layer) at one grid point.

  The body loads its four input blocks whole (a 256-row stripe of the adjacency matrix, the whole feature matrix, the
  whole weight matrix, the bias row), computes one pure term of them and stores it over the whole 256x64 output block.
  So after the body the output's staging buffer holds that term, read through the one stored rectangle; the input
  buffers are as they were.
-/
import proofs.«154171_j12197707120647_1_alg».proof.Proof.Gen.Kernel.Launch
import proofs.«154171_j12197707120647_1_alg».proof.Proof.Gen.Kernel.Skeleton
import proofs.«154171_j12197707120647_1_alg».proof.Proof.Gen.Kernel.Points
import Idealize.ShloMosaic.Lib.Pipeline.FrameBody
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-- The whole 256x8192 stripe, the whole 8192x128, 64x128 and 1x64 operands, and the whole 256x64 result block. -/
abbrev rF : Rect S256x8192 := Rect.unit (s := S256x8192) ![0, 0] S256x8192.size inb_S256x8192_S256x8192_0_0
abbrev rX : Rect S8192x128 := Rect.unit (s := S8192x128) ![0, 0] S8192x128.size inb_S8192x128_S8192x128_0_0
abbrev rW : Rect S64x128 := Rect.unit (s := S64x128) ![0, 0] S64x128.size inb_S64x128_S64x128_0_0
abbrev rB : Rect S1x64 := Rect.unit (s := S1x64) ![0, 0] S1x64.size inb_S1x64_S1x64_0_0
abbrev rO : Rect S256x64 := Rect.unit (s := S256x64) ![0, 0] S256x64.size inb_S256x64_S256x64_0_0

/-- What the body leaves in the output block, from the four input blocks: its one store, read back through the
    stored rectangle. -/
def out0 (xF : Vec F S256x8192 .f32) (xX : Vec F S8192x128 .f32) (xW : Vec F S64x128 .f32) (xB : Vec F S1x64 .f32) :
    Vec F S256x64 .f32 :=
  View.canon [⟨rO, k0_pay1 (View.ld xF rF) (View.ld xX rX) (View.ld xW rW) (View.ld xB rB)⟩]

/-- The one store covers the output block. -/
theorem cover0 (p0 : Vec F S256x64 .f32) (y : S256x64.Idx) :
    ∃ pc ∈ ([⟨rO, p0⟩] : List (View.Piece (Elt F) S256x64 .f32)), y ∈ pc.1.set :=
  View.cover_of_tiled [⟨rO, p0⟩] S256x64.size (by rfl) y

set_option maxHeartbeats 1000000 in
/-- The body on whole staging memrefs, the inputs' at given contents and the output's at anything, runs to the
    continuation with the inputs' unchanged and the output's at `out0` of the inputs'. -/
theorem sound_kernel0 (c : Dev nD) (E : Set ℕ) (i : grid0.Coords)
    (arg1 : Memref sig .tc .vmem S256x8192 .f32) (harg1 : arg1.IsWhole) (arg2 : Memref sig .tc .vmem S8192x128 .f32) (harg2 : arg2.IsWhole)
    (arg3 : Memref sig .tc .vmem S64x128 .f32) (harg3 : arg3.IsWhole) (arg4 : Memref sig .tc .vmem S1x64 .f32) (harg4 : arg4.IsWhole)
    (arg5 : Memref sig .tc .vmem S256x64 .f32) (harg5 : arg5.IsWhole)
    (xF : Vec F S256x8192 .f32) (xX : Vec F S8192x128 .f32) (xW : Vec F S64x128 .f32) (xB : Vec F S1x64 .f32) (K : PUnit → sProp 𝕄) :
    iprop(owns (c : Thread nD τ) arg1 fullShare xF ∗ owns (c : Thread nD τ) arg2 fullShare xX ∗ owns (c : Thread nD τ) arg3 fullShare xW
        ∗ owns (c : Thread nD τ) arg4 fullShare xB ∗ (∃ d, owns (c : Thread nD τ) arg5 fullShare d)
        ∗ (iprop(owns (c : Thread nD τ) arg1 fullShare xF ∗ owns (c : Thread nD τ) arg2 fullShare xX ∗ owns (c : Thread nD τ) arg3 fullShare xW
            ∗ owns (c : Thread nD τ) arg4 fullShare xB ∗ owns (c : Thread nD τ) arg5 fullShare (out0 xF xX xW xB)) -∗ K ⟨⟩))
      ⊢ wp frame (wpE (defs₀ (F := F)) Variants.none c none) E (cc0__agg_linear_kernel i arg1 harg1 arg2 harg2 arg3 harg3 arg4 harg4 arg5 harg5) K := by
  simp only [cc0__agg_linear_kernel_eq_skeleton]; unfold cc0__agg_linear_kernel_skel
  unfold owns
  iintro ⟨⟨%f1, %hf1, H1⟩, ⟨%f2, %hf2, H2⟩, ⟨%f3, %hf3, H3⟩, ⟨%f4, %hf4, H4⟩, ⟨%d5, %f5, -, H5⟩, Hk⟩
  subst hf1; subst hf2; subst hf3; subst hf4
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover0 _)

end Cert.Kernel.Hand

end
-- ==== Proof.KernelDat0.lean ====
/-
  The first pallas_call as a pipeline: its proof data at the contents `V` the region finds in the core's buffers.

  Each input window's staging buffer holds, at every grid point, the window's block of its array (the 256-row stripe of
  the adjacency matrix at the point's row index; the whole feature, weight and bias arrays, fetched once and kept);
  after the body the output window's buffer holds the body's term of those blocks. The region invariant is the scoped
  rest and the generator register, untouched; nothing is owed; every array is held whole.
-/
import proofs.«154171_j12197707120647_1_alg».proof.Proof.KernelBody0

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, fetched there or not, for any proof data
    whose array is `V`'s and whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-- The proof data of the first pipeline on core `c`. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => out0 (iblk0 V c 0 t) (iblk0 V c 1 t) (iblk0 V c 2 t) (iblk0 V c 3 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) :
    (dat0 V c).after 4 t = out0 (iblk0 V c 0 t) (iblk0 V c 1 t) (iblk0 V c 2 t) (iblk0 V c 3 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t))

/-- The body at any point: the inputs' memrefs hold their blocks, so the body's run applies; the invariant and the
    core's dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3]
  rw [show (dat0 V c).Φ t.succ = (dat0 V c).Φ t.castSucc from rfl,
    show (dat0 V c).owesAt () t.succ = (dat0 V c).owesAt () t.castSucc from rfl,
    after0_0, after0_1, after0_2, after0_3, after0_4]
  iintro ⟨HΦ, Ho, ⟨%d0, H0⟩, ⟨%d1, H1⟩, ⟨%d2, H2⟩, ⟨%d3, H3⟩, ⟨%d4, H4⟩⟩
  iapply (sound_kernel0 c Set.univ _ _ _ _ _ _ _ _ _ _ _ (iblk0 V c 0 t) (iblk0 V c 1 t) (iblk0 V c 2 t) (iblk0 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.KernelBody1.lean ====
/-
  The second kernel (pairwise Euclidean distance of the new features, times the weight matrix) at one grid point.

  The body loads a 1024-row block of the features twice (the row tile and the column tile) and a 1024x1024 tile of the
  weights, computes one pure term of them and stores it over the whole 1024x1024 output tile. So after the body the
  output's staging buffer holds that term, read through the one stored rectangle; the input buffers are as they were.
-/
import proofs.«154171_j12197707120647_1_alg».proof.Proof.Gen.Kernel.Launch
import proofs.«154171_j12197707120647_1_alg».proof.Proof.Gen.Kernel.Skeleton
import proofs.«154171_j12197707120647_1_alg».proof.Proof.Gen.Kernel.Points
import Idealize.ShloMosaic.Lib.Pipeline.FrameBody
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-- A whole 1024x64 feature block and a whole 1024x1024 tile. -/
abbrev rN : Rect S1024x64 := Rect.unit (s := S1024x64) ![0, 0] S1024x64.size inb_S1024x64_S1024x64_0_0
abbrev rT : Rect S1024x1024 := Rect.unit (s := S1024x1024) ![0, 0] S1024x1024.size inb_S1024x1024_S1024x1024_0_0

/-- What the body leaves in the output tile, from the three input blocks: its one store, read back through the
    stored rectangle. -/
def out1 (xI xJ : Vec F S1024x64 .f32) (xP : Vec F S1024x1024 .f32) : Vec F S1024x1024 .f32 :=
  View.canon [⟨rT, k1_pay1 (View.ld xI rN) (View.ld xJ rN) (View.ld xP rT)⟩]

/-- The one store covers the output tile. -/
theorem cover1 (p0 : Vec F S1024x1024 .f32) (y : S1024x1024.Idx) :
    ∃ pc ∈ ([⟨rT, p0⟩] : List (View.Piece (Elt F) S1024x1024 .f32)), y ∈ pc.1.set :=
  View.cover_of_tiled [⟨rT, p0⟩] S1024x1024.size (by rfl) y

set_option maxHeartbeats 1000000 in
/-- The body on whole staging memrefs, the inputs' at given contents and the output's at anything, runs to the
    continuation with the inputs' unchanged and the output's at `out1` of the inputs'. -/
theorem sound_kernel1 (c : Dev nD) (E : Set ℕ) (i : grid1.Coords)
    (arg2 : Memref sig .tc .vmem S1024x64 .f32) (harg2 : arg2.IsWhole) (arg3 : Memref sig .tc .vmem S1024x64 .f32) (harg3 : arg3.IsWhole)
    (arg4 : Memref sig .tc .vmem S1024x1024 .f32) (harg4 : arg4.IsWhole) (arg5 : Memref sig .tc .vmem S1024x1024 .f32) (harg5 : arg5.IsWhole)
    (xI xJ : Vec F S1024x64 .f32) (xP : Vec F S1024x1024 .f32) (K : PUnit → sProp 𝕄) :
    iprop(owns (c : Thread nD τ) arg2 fullShare xI ∗ owns (c : Thread nD τ) arg3 fullShare xJ ∗ owns (c : Thread nD τ) arg4 fullShare xP
        ∗ (∃ d, owns (c : Thread nD τ) arg5 fullShare d)
        ∗ (iprop(owns (c : Thread nD τ) arg2 fullShare xI ∗ owns (c : Thread nD τ) arg3 fullShare xJ ∗ owns (c : Thread nD τ) arg4 fullShare xP
            ∗ owns (c : Thread nD τ) arg5 fullShare (out1 xI xJ xP)) -∗ K ⟨⟩))
      ⊢ wp frame (wpE (defs₀ (F := F)) Variants.none c none) E (cc1__pairwise_force_kernel i arg2 harg2 arg3 harg3 arg4 harg4 arg5 harg5) K := by
  simp only [cc1__pairwise_force_kernel_eq_skeleton]; unfold cc1__pairwise_force_kernel_skel
  unfold owns
  iintro ⟨⟨%f2, %hf2, H2⟩, ⟨%f3, %hf3, H3⟩, ⟨%f4, %hf4, H4⟩, ⟨%d5, %f5, -, H5⟩, Hk⟩
  subst hf2; subst hf3; subst hf4
  sl_exec
  sl_step
  iapply Hk
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover1 _)

end Cert.Kernel.Hand

end
-- ==== Proof.KernelDat1.lean ====
/-
  The second pallas_call as a pipeline: its proof data at the contents `V` the region finds in the core's buffers.

  The feature array is read through two windows (the row tile and the column tile), so the core's hold on it is dealt
  between them: the left half of the full share to the first window, the right half to the second. The weight array
  and the output array are held whole. Each input window's staging buffer holds, at every grid point, the window's
  block of its array; after the body the output window's buffer holds the body's term of those blocks.
-/
import proofs.«154171_j12197707120647_1_alg».proof.Proof.KernelBody1

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, fetched there or not, for any proof data
    whose array is `V`'s and whose body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- The proof data of the second pipeline on core `c`. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1 (iblk1 V c 0 t) (iblk1 V c 1 t) (iblk1 V c 2 t)
  Φ _ := Pipeline.ΦA spec1 c
  q w := match w with
    | ⟨0, _⟩ => fullShare.left
    | ⟨1, _⟩ => fullShare.right
    | ⟨2, _⟩ => fullShare
    | ⟨3, _⟩ => fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) :
    (dat1 V c).after 3 t = out1 (iblk1 V c 0 t) (iblk1 V c 1 t) (iblk1 V c 2 t) := by dsimp only [dat1]

/-- The shares the arrays are held at: the feature array's two halves, the weight and output arrays whole. -/
theorem share1_0 (c : Dev nD) : (dat1 V c).share 0 = fullShare.left := by unfold Dat.share; rfl
theorem share1_1 (c : Dev nD) : (dat1 V c).share 1 = fullShare.right := by unfold Dat.share; rfl
theorem share1_2 (c : Dev nD) : (dat1 V c).share 2 = fullShare := by unfold Dat.share; rfl
theorem share1_3 (c : Dev nD) : (dat1 V c).share 3 = fullShare := by unfold Dat.share; rfl

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

/-- The body at any point: the inputs' memrefs hold their blocks, so the body's run applies; the invariant and the
    core's dues pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ _ _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.KernelShare1.lean ====
/-
  The second pallas_call's hold on its arrays, dealt from and returned to the core's whole buffers.

  The region reads three distinct buffers: the feature array (through two windows), the weight array and the output
  array. Entering, the core's whole hold on the feature array is halved between the two windows that read it; leaving,
  the halves are joined again. The output array is left at what the pipeline's write-backs make of it; every other
  buffer is as it was.
-/
import proofs.«154171_j12197707120647_1_alg».proof.Proof.KernelDat1
import Idealize.ShloMosaic.Lib.Pipeline.Frame

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-- The three distinct buffers behind the second pallas_call's four windows, each whole. -/
theorem arrBufs1_eq (c : Dev nD) (V : (b : Ref sig .tc) → Buf (Elt F) ((c : Thread nD τ).loc b)) :
    (Pipeline.arrBufs (Ix := Unit) (Name := ℕ) (U := UR sig nD τ) (Lvl := ℕ) spec1 c V : sProp 𝕄)
      = iprop((((c : Thread nD τ).loc main_v1) ↦{fullShare} V main_v1) ∗ (((c : Thread nD τ).loc main_arg2) ↦{fullShare} V main_arg2)
          ∗ (((c : Thread nD τ).loc main_v2) ↦{fullShare} V main_v2)) := by
  unfold Pipeline.arrBufs
  exact bigSep_eq_bigSepL_of_eq [main_v1, main_arg2, main_v2] (by decide) (by decide) _

variable (V : (c : Dev nD) → (b : Ref sig .tc) → Buf (Elt F) ((c : Thread nD τ).loc b))

/-- The pipeline's hold on its arrays, window by window: the feature array's two halves, the weight and output arrays
    whole. -/
theorem arrays1_eq (c : Dev nD) (G : (w : Fin cfg1.W) → Buf (Elt F) ((cfg1.win w).arr.view.loc (c : Thread nD τ))) :
    ((dat1 V c).arrays G : sProp 𝕄)
      = iprop((((c : Thread nD τ).loc main_v1) ↦{fullShare.left} G 0) ∗ (((c : Thread nD τ).loc main_v1) ↦{fullShare.right} G 1)
          ∗ (((c : Thread nD τ).loc main_arg2) ↦{fullShare} G 2) ∗ (((c : Thread nD τ).loc main_v2) ↦{fullShare} G 3)) := by
  unfold Dat.arrays
  rw [bigSep_W1]
  have h0 : (cfg1.win 0).arr.view.set = Finset.univ := (arr_whole1 0).set_eq_univ
  have h2 : (cfg1.win 2).arr.view.set = Finset.univ := (arr_whole1 2).set_eq_univ
  have h3 : (cfg1.win 3).arr.view.set = Finset.univ := (arr_whole1 3).set_eq_univ
  rw [h0, h2, h3, share1_0, share1_1, share1_2, share1_3]

/-- Entering the region: the core's unscoped buffers at `V` are the pipeline's arrays at their entry contents — the
    feature array's hold halved between its two windows — and the buffers the region does not stage. -/
theorem entry1 (c : Dev nD) :
    (unscopedBufs (Ix := Unit) (Name := ℕ) (U := UR sig nD τ) (Lvl := ℕ) c (V c) : sProp 𝕄)
      ⊢ iprop((dat1 V c).arrays ((dat1 V c).arrAt · 0) ∗ Pipeline.unscopedRest spec1 c (V c)) := by
  have hs : (unscopedBufs c (V c) : sProp 𝕄) = iprop(Pipeline.arrBufs spec1 c (V c) ∗ Pipeline.unscopedRest spec1 c (V c)) :=
    Pipeline.unscopedBufs_split₀ cfgs 1 winFacts₀1.arr_unscoped c (V c)
  rw [hs, arrBufs1_eq, arrays1_eq]
  iintro ⟨⟨H1, H2, H3⟩, Hr⟩
  have hhalve : ((((c : Thread nD τ).loc main_v1) ↦{fullShare} V c main_v1 : sProp 𝕄))
      ⊢ iprop((((c : Thread nD τ).loc main_v1) ↦{fullShare.left} V c main_v1) ∗ (((c : Thread nD τ).loc main_v1) ↦{fullShare.right} V c main_v1)) :=
    (pointsTo_share (PosShare.mem_left_op_right fullShare)).1
  ihave H1' := hhalve $$ H1
  icases H1' with ⟨Hl, Hrt⟩
  isplitr [Hr]
  · isplitl [Hl]; · iexact Hl
    isplitl [Hrt]; · iexact Hrt
    isplitl [H2]; · iexact H2
    iexact H3
  iexact Hr

/-- Leaving the region: the pipeline's arrays at their final contents — the feature array's two halves joined, the
    output array at what the write-backs left — and the buffers the region did not stage are the core's unscoped
    buffers at any contents `V'` that hold the output array so and agree with `V` elsewhere. -/
theorem exit1 (c : Dev nD) (V' : (b : Ref sig .tc) → Buf (Elt F) ((c : Thread nD τ).loc b))
    (hout : V' main_v2 = (dat1 V c).arrAt 3 cfg1.N) (hrest : ∀ b : Ref sig .tc, b ≠ main_v2 → V' b = V c b) :
    iprop((dat1 V c).arrays ((dat1 V c).arrAt · cfg1.N) ∗ Pipeline.unscopedRest spec1 c (V c))
      ⊢ (unscopedBufs (Ix := Unit) (Name := ℕ) (U := UR sig nD τ) (Lvl := ℕ) c V' : sProp 𝕄) := by
  have hs : (unscopedBufs c V' : sProp 𝕄) = iprop(Pipeline.arrBufs spec1 c V' ∗ Pipeline.unscopedRest spec1 c V') :=
    Pipeline.unscopedBufs_split₀ cfgs 1 winFacts₀1.arr_unscoped c V'
  have hr : (Pipeline.unscopedRest (Ix := Unit) (Name := ℕ) (U := UR sig nD τ) (Lvl := ℕ) spec1 c V' : sProp 𝕄)
      = Pipeline.unscopedRest spec1 c (V c) := by
    unfold Pipeline.unscopedRest
    exact bigSep_congr fun b hb => by
      rw [hrest b (fun e => (Finset.mem_sdiff.mp hb).2 (Finset.mem_image.mpr ⟨3, Finset.mem_univ _, e.symm⟩))]
  have e0 : (dat1 V c).arrAt 0 cfg1.N = V' main_v1 :=
    ((dat1 V c).arrAt_in 0 rfl _).trans ((A_eq1 V c 0).trans (hrest main_v1 (by decide)).symm)
  have e1 : (dat1 V c).arrAt 1 cfg1.N = V' main_v1 :=
    ((dat1 V c).arrAt_in 1 rfl _).trans ((A_eq1 V c 1).trans (hrest main_v1 (by decide)).symm)
  have e2 : (dat1 V c).arrAt 2 cfg1.N = V' main_arg2 :=
    ((dat1 V c).arrAt_in 2 rfl _).trans ((A_eq1 V c 2).trans (hrest main_arg2 (by decide)).symm)
  rw [hs, hr, arrBufs1_eq, arrays1_eq]
  dsimp only
  rw [e0, e1, e2, ← hout]
  iintro ⟨⟨Hl, Hrt, H2, H3⟩, Hr⟩
  isplitr [Hr]
  · isplitl [Hl Hrt]
    · iapply (pointsTo_share (PosShare.mem_left_op_right fullShare)).2
      isplitl [Hl]; · iexact Hl
      iexact Hrt
    isplitl [H2]; · iexact H2
    iexact H3
  iexact Hr

end Cert.Kernel.Hand

end
-- ==== Proof.KernelRun.lean ====
/-
  The whole program's run: a reshape of the bias on the host, then the two pallas_calls.

  The contents of the core's unscoped buffers are followed from the launch memory through the program: after the host
  reshape; after the first pallas_call, which leaves the new-features array at what its write-backs make of it and
  every other buffer as it was; after the second, which leaves the force array so. Each pallas_call is entered from
  "every unscoped buffer whole at the contents so far", deals its arrays out of them, runs its pipeline under the body
  obligation, and puts the arrays back at their final contents. At the end the final memory holds every unscoped buffer
  at the last contents: the arguments as launched, the two results at the pipelines' final arrays.
-/
import proofs.«154171_j12197707120647_1_alg».proof.Proof.KernelDat0
import proofs.«154171_j12197707120647_1_alg».proof.Proof.KernelShare1
import Idealize.ShloMosaic.Lib.Pipeline.RegionsLoop
import Idealize.ShloMosaic.Lib.Pipeline.FrameSuffix

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents from the launch to the return -/

/-- Core `c`'s buffers at launch. -/
abbrev W0 : Dev nD → Valuation τ sig (Elt F) := fun c b => (s₀ m ρ).mem ((c : Dev nD), b)
/-- After the host reshape of the bias (the first pallas_call's entry). -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- After the first pallas_call: its arrays at what the pipeline leaves, every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After the second pallas_call: the force array at what the pipeline leaves, every other buffer as entered. -/
def W3 (c : Dev nD) : Valuation τ sig (Elt F) :=
  Function.update (W2 m ρ c) (Proc.devRef .tc (Pipeline.arrRef spec1 3)) ((dat1 (V2 m ρ) c).arrAt 3 cfg1.N)
abbrev V3 : (c : Dev nD) → (b : Ref sig .tc) → Buf (Elt F) ((c : Thread nD τ).loc b) := fun c b => W3 m ρ c b
theorem V3_force (c : Dev nD) : V3 m ρ c main_v2 = (dat1 (V2 m ρ) c).arrAt 3 cfg1.N := by
  show W3 m ρ c (Proc.devRef .tc (Pipeline.arrRef spec1 3)) = _
  unfold W3; exact Function.update_self ..
theorem V3_of_ne (c : Dev nD) (b : Ref sig .tc) (hb : b ≠ main_v2) : V3 m ρ c b = V2 m ρ c b := by
  show W3 m ρ c (Proc.devRef .tc b) = W2 m ρ c (Proc.devRef .tc b)
  unfold W3; exact Function.update_of_ne (StableHlo.devRef_ne_of_ne hb) ..

/-! ## The proof data family and the thread state -/

abbrev adm : (p : Fin 2) → (pcfgs (F := F) p).Adm := fun p => (cfgs p).toPCfg_adm
/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V2 m ρ) c
abbrev 𝒱₀ : Variants := Variants.none
abbrev L : GSem nD τ sig → Finset Unit := fun _ => ∅
abbrev lv : GSem nD τ sig → Unit → ℕ := fun _ _ => 0
/-- What rides beside the buffers through every segment: the core's generator register at some state and its dues, at
    nothing. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem hostOps0_fresh : (hostOps0 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues: every unscoped buffer at the last contents, the generator register at some
    state. -/
abbrev Tₙ (c : Dev nD) : sProp 𝕄 := iprop(StableHlo.held (c : Thread nD τ) (Pipeline.ucRefs τ sig) (W3 m ρ c) ∗ ∃ r, prngReg c r)

/-! ## The pallas_calls as segments -/

set_option backward.isDefEq.respectTransparency.types false in
/-- The first pallas_call: entered from every unscoped buffer at `W1`, left at `W2`. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The second pallas_call: entered from every unscoped buffer at `W2`, left at `W3`. The feature array, read through
    two windows, is dealt to them in halves and joined again at the exit. -/
def reg1 : Pipeline.RegionSeg (pcfgs (F := F)) adm (pdats m ρ) () defs₀ 𝒱₀ L lv 1 where
  win := winFacts₀1
  block_pos := block_pos1
  stage_whole := stage_whole1
  K := PEmpty
  osem k := k.elim
  ho := Pipeline.OwnSemFacts.none _
  hbody c := (body_obligation1 (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := entry1 (V2 m ρ) c
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := exit1 (V2 m ρ) c (V3 m ρ c) (V3_force m ρ c) (fun b hb => V3_of_ne m ρ c b hb)
    rw [Pipeline.unscopedBufs_held] at hjoin
    iintro ⟨Ha, HO, HY, Hrest⟩
    imodintro
    isplitl [Ha Hrest HY]
    · isplitl [Ha Hrest]
      · iapply hjoin
        isplitl [Ha]; · iexact Ha
        iexact Hrest
      iexact HY
    unfold Pipeline.Dat.owesAt Pipeline.owesWithin
    icases HO with ⟨%W, -, HO⟩; iexists W; iexact HO

/-! ## The program as segments, and the launch -/

abbrev segs : List (Pipeline.Seg (pcfgs (F := F)) adm (pdats m ρ) () defs₀ 𝒱₀ L lv) :=
  [ .host (hseg hostOps0 hostOps0_sub hostOps0_fresh (W0 m ρ)),
    .region (reg0 m ρ),
    .region (reg1 m ρ) ]
theorem main_run (c : Dev nD) : main (F := F) c = Pipeline.Seg.run (segs m ρ) := (main_chain c).trans (by chain_rfl)

set_option backward.isDefEq.respectTransparency.types false in
/-- THE RUN: from any memory with zero counters every weakly fair execution of the program terminates, and in every
    final state each unscoped buffer holds the last contents `W3`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W3 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h c => h c)

end Cert.Kernel.Hand

end
-- ==== Proof.KernelResults.lean ====
/-
  What the final memory holds, read off the run: the arguments as launched, the new-features array at what the first
  pipeline's write-backs leave of the region's inputs, the force array at what the second pipeline's leave of the
  new-features array and the weights.
-/
import proofs.«154171_j12197707120647_1_alg».proof.Proof.KernelRun
import Idealize.ShloMosaic.Lib.StableHlo.Run

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The host stretch writes the reshaped bias only. -/
theorem hostOps0_writes : (hostOps0 : List (HloOp τ sig (Elt F))).Forall fun op => op.writes ⊆ (([main_v0] : List (Ref sig .tc)).map (Proc.devRef (τ := τ) .tc)).toFinset := by
  simp only [List.Forall]; exact (by simp only [StableHlo.reshape_writes, Finset.singleton_subset_iff, List.mem_toFinset]; exact List.mem_map_of_mem (by decide))

/-- A buffer the host stretch does not write is as launched when the first pallas_call is entered. -/
theorem V1_of (c : Dev nD) (r : Ref sig .tc) (h : r ∉ ([main_v0] : List (Ref sig .tc))) : V1 m ρ c r = m ((c : Thread nD τ).loc r) :=
  StableHlo.after_of_writes_sub hostOps0 _ hostOps0_writes h

/-- The bias row the first pallas_call reads is the launched bias reshaped to 1x64. -/
theorem V1_bias (c : Dev nD) :
    (V1 m ρ c main_v0 : (⟨S1x64, .f32⟩ : BufTy).Contents (Elt F)) = shapeCast S1x64 (m ((c : Thread nD τ).loc main_arg4)) shapeCasts_S64_S1x64 := by
  show StableHlo.after hostOps0 (W0 m ρ c) (Proc.devRef .tc main_v0) = _
  after_results
  rfl

/-- The feature array the second pallas_call reads is what the first left. -/
theorem V2_nf (c : Dev nD) : V2 m ρ c main_v1 = (dat0 (V1 m ρ) c).arrAt 4 cfg0.N := W2_arr m ρ c 4

/-- The weight array the second pallas_call reads is as launched. -/
theorem V2_weights (c : Dev nD) : V2 m ρ c main_arg2 = m ((c : Thread nD τ).loc main_arg2) :=
  (W2_of_ne m ρ c main_arg2 (by decide)).trans (V1_of m ρ c main_arg2 (by decide))

/-- An array the first pallas_call only reads is, after it, as it was entered. -/
theorem V2_in (c : Dev nD) (w : Fin cfg0.W) (hw : (cfg0.win w).isOut = false) :
    V2 m ρ c (Pipeline.arrRef spec0 w) = V1 m ρ c (Pipeline.arrRef spec0 w) :=
  (W2_arr m ρ c w).trans (((dat0 (V1 m ρ) c).arrAt_in w hw _).trans (A_eq0 (V1 m ρ) c w))

/-- Every argument array ends as launched: no host operation writes one, and each pallas_call reads it through an
    input window or bypasses it. -/
theorem V3_arg0 (c : Dev nD) : V3 m ρ c main_arg0 = m ((c : Thread nD τ).loc main_arg0) :=
  (V3_of_ne m ρ c main_arg0 (by decide)).trans ((V2_in m ρ c 0 rfl).trans (V1_of m ρ c main_arg0 (by decide)))
theorem V3_arg1 (c : Dev nD) : V3 m ρ c main_arg1 = m ((c : Thread nD τ).loc main_arg1) :=
  (V3_of_ne m ρ c main_arg1 (by decide)).trans ((V2_in m ρ c 1 rfl).trans (V1_of m ρ c main_arg1 (by decide)))
theorem V3_arg2 (c : Dev nD) : V3 m ρ c main_arg2 = m ((c : Thread nD τ).loc main_arg2) :=
  (V3_of_ne m ρ c main_arg2 (by decide)).trans (V2_weights m ρ c)
theorem V3_arg3 (c : Dev nD) : V3 m ρ c main_arg3 = m ((c : Thread nD τ).loc main_arg3) :=
  (V3_of_ne m ρ c main_arg3 (by decide)).trans ((V2_in m ρ c 2 rfl).trans (V1_of m ρ c main_arg3 (by decide)))
theorem V3_arg4 (c : Dev nD) : V3 m ρ c main_arg4 = m ((c : Thread nD τ).loc main_arg4) :=
  (V3_of_ne m ρ c main_arg4 (by decide)).trans ((W2_of_ne m ρ c main_arg4 (by decide)).trans (V1_of m ρ c main_arg4 (by decide)))

/-- The new-features array is not touched by the second pallas_call. -/
theorem V3_nf (c : Dev nD) : V3 m ρ c main_v1 = (dat0 (V1 m ρ) c).arrAt 4 cfg0.N :=
  (V3_of_ne m ρ c main_v1 (by decide)).trans (V2_nf m ρ c)

/-- THE RUN, read at the results and the arguments: every weakly fair execution terminates; the force array ends at
    the second pipeline's final array, the new-features array at the first's, each argument as launched. -/
theorem run_main : θ_run defs (onTc (τ := τ) (main (F := F))) ⟨m, fun _ => 0, ρ⟩ (fun r => ∀ c : Dev nD,
      r.2.mem ((c.tc : Thread nD τ).loc main_v2) = (dat1 (V2 m ρ) c).arrAt 3 cfg1.N
      ∧ r.2.mem ((c.tc : Thread nD τ).loc main_v1) = (dat0 (V1 m ρ) c).arrAt 4 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c =>
    ⟨(h c _ (mem_uc main_v2 (by decide))).trans (V3_force m ρ c),
      (h c _ (mem_uc main_v1 (by decide))).trans (V3_nf m ρ c),
      (h c _ (mem_uc main_arg0 (by decide))).trans (V3_arg0 m ρ c),
      (h c _ (mem_uc main_arg1 (by decide))).trans (V3_arg1 m ρ c),
      (h c _ (mem_uc main_arg2 (by decide))).trans (V3_arg2 m ρ c),
      (h c _ (mem_uc main_arg3 (by decide))).trans (V3_arg3 m ρ c),
      (h c _ (mem_uc main_arg4 (by decide))).trans (V3_arg4 m ρ c)⟩) (run_all m ρ)

/-- THE FRAME: every weakly fair execution terminates, nothing faulting, and the argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c => (h c).2.2) (run_main m ρ)

end Cert.Kernel.Hand

end
-- ==== Proof.KernelIdealBody0.lean ====
/-
  The first kernel (graph aggregation fused with the linear layer) at one grid point.

  The body loads its four input blocks whole (a 256-row stripe of the adjacency matrix, the whole feature matrix, the
  whole weight matrix, the bias row), computes one pure term of them and stores it over the whole 256x64 output block.
  So after the body the output's staging buffer holds that term, read through the one stored rectangle; the input
  buffers are as they were.
-/
import proofs.«154171_j12197707120647_1_alg».proof.Proof.Gen.KernelIdeal.Launch
import proofs.«154171_j12197707120647_1_alg».proof.Proof.Gen.KernelIdeal.Skeleton
import proofs.«154171_j12197707120647_1_alg».proof.Proof.Gen.KernelIdeal.Points
import Idealize.ShloMosaic.Lib.Pipeline.FrameBody
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-- The whole 256x8192 stripe, the whole 8192x128, 64x128 and 1x64 operands, and the whole 256x64 result block. -/
abbrev rF : Rect S256x8192 := Rect.unit (s := S256x8192) ![0, 0] S256x8192.size inb_S256x8192_S256x8192_0_0
abbrev rX : Rect S8192x128 := Rect.unit (s := S8192x128) ![0, 0] S8192x128.size inb_S8192x128_S8192x128_0_0
abbrev rW : Rect S64x128 := Rect.unit (s := S64x128) ![0, 0] S64x128.size inb_S64x128_S64x128_0_0
abbrev rB : Rect S1x64 := Rect.unit (s := S1x64) ![0, 0] S1x64.size inb_S1x64_S1x64_0_0
abbrev rO : Rect S256x64 := Rect.unit (s := S256x64) ![0, 0] S256x64.size inb_S256x64_S256x64_0_0

/-- What the body leaves in the output block, from the four input blocks: its one store, read back through the
    stored rectangle. -/
def out0 (xF : Vec F S256x8192 .f32) (xX : Vec F S8192x128 .f32) (xW : Vec F S64x128 .f32) (xB : Vec F S1x64 .f32) :
    Vec F S256x64 .f32 :=
  View.canon [⟨rO, k0_pay1 (View.ld xF rF) (View.ld xX rX) (View.ld xW rW) (View.ld xB rB)⟩]

/-- The one store covers the output block. -/
theorem cover0 (p0 : Vec F S256x64 .f32) (y : S256x64.Idx) :
    ∃ pc ∈ ([⟨rO, p0⟩] : List (View.Piece (Elt F) S256x64 .f32)), y ∈ pc.1.set :=
  View.cover_of_tiled [⟨rO, p0⟩] S256x64.size (by rfl) y

set_option maxHeartbeats 1000000 in
/-- The body on whole staging memrefs, the inputs' at given contents and the output's at anything, runs to the
    continuation with the inputs' unchanged and the output's at `out0` of the inputs'. -/
theorem sound_kernel0 (c : Dev nD) (E : Set ℕ) (i : grid0.Coords)
    (arg1 : Memref sig .tc .vmem S256x8192 .f32) (harg1 : arg1.IsWhole) (arg2 : Memref sig .tc .vmem S8192x128 .f32) (harg2 : arg2.IsWhole)
    (arg3 : Memref sig .tc .vmem S64x128 .f32) (harg3 : arg3.IsWhole) (arg4 : Memref sig .tc .vmem S1x64 .f32) (harg4 : arg4.IsWhole)
    (arg5 : Memref sig .tc .vmem S256x64 .f32) (harg5 : arg5.IsWhole)
    (xF : Vec F S256x8192 .f32) (xX : Vec F S8192x128 .f32) (xW : Vec F S64x128 .f32) (xB : Vec F S1x64 .f32) (K : PUnit → sProp 𝕄) :
    iprop(owns (c : Thread nD τ) arg1 fullShare xF ∗ owns (c : Thread nD τ) arg2 fullShare xX ∗ owns (c : Thread nD τ) arg3 fullShare xW
        ∗ owns (c : Thread nD τ) arg4 fullShare xB ∗ (∃ d, owns (c : Thread nD τ) arg5 fullShare d)
        ∗ (iprop(owns (c : Thread nD τ) arg1 fullShare xF ∗ owns (c : Thread nD τ) arg2 fullShare xX ∗ owns (c : Thread nD τ) arg3 fullShare xW
            ∗ owns (c : Thread nD τ) arg4 fullShare xB ∗ owns (c : Thread nD τ) arg5 fullShare (out0 xF xX xW xB)) -∗ K ⟨⟩))
      ⊢ wp frame (wpE (defs₀ (F := F)) Variants.none c none) E (cc0__agg_linear_kernel i arg1 harg1 arg2 harg2 arg3 harg3 arg4 harg4 arg5 harg5) K := by
  simp only [cc0__agg_linear_kernel_eq_skeleton]; unfold cc0__agg_linear_kernel_skel
  unfold owns
  iintro ⟨⟨%f1, %hf1, H1⟩, ⟨%f2, %hf2, H2⟩, ⟨%f3, %hf3, H3⟩, ⟨%f4, %hf4, H4⟩, ⟨%d5, %f5, -, H5⟩, Hk⟩
  subst hf1; subst hf2; subst hf3; subst hf4
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover0 _)

end Cert.KernelIdeal.Hand

end
-- ==== Proof.KernelIdealDat0.lean ====
/-
  The first pallas_call as a pipeline: its proof data at the contents `V` the region finds in the core's buffers.

  Each input window's staging buffer holds, at every grid point, the window's block of its array (the 256-row stripe of
  the adjacency matrix at the point's row index; the whole feature, weight and bias arrays, fetched once and kept);
  after the body the output window's buffer holds the body's term of those blocks. The region invariant is the scoped
  rest and the generator register, untouched; nothing is owed; every array is held whole.
-/
import proofs.«154171_j12197707120647_1_alg».proof.Proof.KernelIdealBody0

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, fetched there or not, for any proof data
    whose array is `V`'s and whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-- The proof data of the first pipeline on core `c`. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => out0 (iblk0 V c 0 t) (iblk0 V c 1 t) (iblk0 V c 2 t) (iblk0 V c 3 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) :
    (dat0 V c).after 4 t = out0 (iblk0 V c 0 t) (iblk0 V c 1 t) (iblk0 V c 2 t) (iblk0 V c 3 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t))

/-- The body at any point: the inputs' memrefs hold their blocks, so the body's run applies; the invariant and the
    core's dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3]
  rw [show (dat0 V c).Φ t.succ = (dat0 V c).Φ t.castSucc from rfl,
    show (dat0 V c).owesAt () t.succ = (dat0 V c).owesAt () t.castSucc from rfl,
    after0_0, after0_1, after0_2, after0_3, after0_4]
  iintro ⟨HΦ, Ho, ⟨%d0, H0⟩, ⟨%d1, H1⟩, ⟨%d2, H2⟩, ⟨%d3, H3⟩, ⟨%d4, H4⟩⟩
  iapply (sound_kernel0 c Set.univ _ _ _ _ _ _ _ _ _ _ _ (iblk0 V c 0 t) (iblk0 V c 1 t) (iblk0 V c 2 t) (iblk0 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.KernelIdealBody1.lean ====
/-
  The second kernel (pairwise Euclidean distance of the new features, times the weight matrix) at one grid point.

  The body loads a 1024-row block of the features twice (the row tile and the column tile) and a 1024x1024 tile of the
  weights, computes one pure term of them and stores it over the whole 1024x1024 output tile. So after the body the
  output's staging buffer holds that term, read through the one stored rectangle; the input buffers are as they were.
-/
import proofs.«154171_j12197707120647_1_alg».proof.Proof.Gen.KernelIdeal.Launch
import proofs.«154171_j12197707120647_1_alg».proof.Proof.Gen.KernelIdeal.Skeleton
import proofs.«154171_j12197707120647_1_alg».proof.Proof.Gen.KernelIdeal.Points
import Idealize.ShloMosaic.Lib.Pipeline.FrameBody
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-- A whole 1024x64 feature block and a whole 1024x1024 tile. -/
abbrev rN : Rect S1024x64 := Rect.unit (s := S1024x64) ![0, 0] S1024x64.size inb_S1024x64_S1024x64_0_0
abbrev rT : Rect S1024x1024 := Rect.unit (s := S1024x1024) ![0, 0] S1024x1024.size inb_S1024x1024_S1024x1024_0_0

/-- What the body leaves in the output tile, from the three input blocks: its one store, read back through the
    stored rectangle. -/
def out1 (xI xJ : Vec F S1024x64 .f32) (xP : Vec F S1024x1024 .f32) : Vec F S1024x1024 .f32 :=
  View.canon [⟨rT, k1_pay1 (View.ld xI rN) (View.ld xJ rN) (View.ld xP rT)⟩]

/-- The one store covers the output tile. -/
theorem cover1 (p0 : Vec F S1024x1024 .f32) (y : S1024x1024.Idx) :
    ∃ pc ∈ ([⟨rT, p0⟩] : List (View.Piece (Elt F) S1024x1024 .f32)), y ∈ pc.1.set :=
  View.cover_of_tiled [⟨rT, p0⟩] S1024x1024.size (by rfl) y

set_option maxHeartbeats 1000000 in
/-- The body on whole staging memrefs, the inputs' at given contents and the output's at anything, runs to the
    continuation with the inputs' unchanged and the output's at `out1` of the inputs'. -/
theorem sound_kernel1 (c : Dev nD) (E : Set ℕ) (i : grid1.Coords)
    (arg2 : Memref sig .tc .vmem S1024x64 .f32) (harg2 : arg2.IsWhole) (arg3 : Memref sig .tc .vmem S1024x64 .f32) (harg3 : arg3.IsWhole)
    (arg4 : Memref sig .tc .vmem S1024x1024 .f32) (harg4 : arg4.IsWhole) (arg5 : Memref sig .tc .vmem S1024x1024 .f32) (harg5 : arg5.IsWhole)
    (xI xJ : Vec F S1024x64 .f32) (xP : Vec F S1024x1024 .f32) (K : PUnit → sProp 𝕄) :
    iprop(owns (c : Thread nD τ) arg2 fullShare xI ∗ owns (c : Thread nD τ) arg3 fullShare xJ ∗ owns (c : Thread nD τ) arg4 fullShare xP
        ∗ (∃ d, owns (c : Thread nD τ) arg5 fullShare d)
        ∗ (iprop(owns (c : Thread nD τ) arg2 fullShare xI ∗ owns (c : Thread nD τ) arg3 fullShare xJ ∗ owns (c : Thread nD τ) arg4 fullShare xP
            ∗ owns (c : Thread nD τ) arg5 fullShare (out1 xI xJ xP)) -∗ K ⟨⟩))
      ⊢ wp frame (wpE (defs₀ (F := F)) Variants.none c none) E (cc1__pairwise_force_kernel i arg2 harg2 arg3 harg3 arg4 harg4 arg5 harg5) K := by
  simp only [cc1__pairwise_force_kernel_eq_skeleton]; unfold cc1__pairwise_force_kernel_skel
  unfold owns
  iintro ⟨⟨%f2, %hf2, H2⟩, ⟨%f3, %hf3, H3⟩, ⟨%f4, %hf4, H4⟩, ⟨%d5, %f5, -, H5⟩, Hk⟩
  subst hf2; subst hf3; subst hf4
  sl_exec
  sl_step
  iapply Hk
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover1 _)

end Cert.KernelIdeal.Hand

end
-- ==== Proof.KernelIdealDat1.lean ====
/-
  The second pallas_call as a pipeline: its proof data at the contents `V` the region finds in the core's buffers.

  The feature array is read through two windows (the row tile and the column tile), so the core's hold on it is dealt
  between them: the left half of the full share to the first window, the right half to the second. The weight array
  and the output array are held whole. Each input window's staging buffer holds, at every grid point, the window's
  block of its array; after the body the output window's buffer holds the body's term of those blocks.
-/
import proofs.«154171_j12197707120647_1_alg».proof.Proof.KernelIdealBody1

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, fetched there or not, for any proof data
    whose array is `V`'s and whose body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- The proof data of the second pipeline on core `c`. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1 (iblk1 V c 0 t) (iblk1 V c 1 t) (iblk1 V c 2 t)
  Φ _ := Pipeline.ΦA spec1 c
  q w := match w with
    | ⟨0, _⟩ => fullShare.left
    | ⟨1, _⟩ => fullShare.right
    | ⟨2, _⟩ => fullShare
    | ⟨3, _⟩ => fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) :
    (dat1 V c).after 3 t = out1 (iblk1 V c 0 t) (iblk1 V c 1 t) (iblk1 V c 2 t) := by dsimp only [dat1]

/-- The shares the arrays are held at: the feature array's two halves, the weight and output arrays whole. -/
theorem share1_0 (c : Dev nD) : (dat1 V c).share 0 = fullShare.left := by unfold Dat.share; rfl
theorem share1_1 (c : Dev nD) : (dat1 V c).share 1 = fullShare.right := by unfold Dat.share; rfl
theorem share1_2 (c : Dev nD) : (dat1 V c).share 2 = fullShare := by unfold Dat.share; rfl
theorem share1_3 (c : Dev nD) : (dat1 V c).share 3 = fullShare := by unfold Dat.share; rfl

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

/-- The body at any point: the inputs' memrefs hold their blocks, so the body's run applies; the invariant and the
    core's dues pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ _ _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.KernelIdealShare1.lean ====
/-
  The second pallas_call's hold on its arrays, dealt from and returned to the core's whole buffers.

  The region reads three distinct buffers: the feature array (through two windows), the weight array and the output
  array. Entering, the core's whole hold on the feature array is halved between the two windows that read it; leaving,
  the halves are joined again. The output array is left at what the pipeline's write-backs make of it; every other
  buffer is as it was.
-/
import proofs.«154171_j12197707120647_1_alg».proof.Proof.KernelIdealDat1
import Idealize.ShloMosaic.Lib.Pipeline.Frame

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-- The three distinct buffers behind the second pallas_call's four windows, each whole. -/
theorem arrBufs1_eq (c : Dev nD) (V : (b : Ref sig .tc) → Buf (Elt F) ((c : Thread nD τ).loc b)) :
    (Pipeline.arrBufs (Ix := Unit) (Name := ℕ) (U := UR sig nD τ) (Lvl := ℕ) spec1 c V : sProp 𝕄)
      = iprop((((c : Thread nD τ).loc main_v1) ↦{fullShare} V main_v1) ∗ (((c : Thread nD τ).loc main_arg2) ↦{fullShare} V main_arg2)
          ∗ (((c : Thread nD τ).loc main_v2) ↦{fullShare} V main_v2)) := by
  unfold Pipeline.arrBufs
  exact bigSep_eq_bigSepL_of_eq [main_v1, main_arg2, main_v2] (by decide) (by decide) _

variable (V : (c : Dev nD) → (b : Ref sig .tc) → Buf (Elt F) ((c : Thread nD τ).loc b))

/-- The pipeline's hold on its arrays, window by window: the feature array's two halves, the weight and output arrays
    whole. -/
theorem arrays1_eq (c : Dev nD) (G : (w : Fin cfg1.W) → Buf (Elt F) ((cfg1.win w).arr.view.loc (c : Thread nD τ))) :
    ((dat1 V c).arrays G : sProp 𝕄)
      = iprop((((c : Thread nD τ).loc main_v1) ↦{fullShare.left} G 0) ∗ (((c : Thread nD τ).loc main_v1) ↦{fullShare.right} G 1)
          ∗ (((c : Thread nD τ).loc main_arg2) ↦{fullShare} G 2) ∗ (((c : Thread nD τ).loc main_v2) ↦{fullShare} G 3)) := by
  unfold Dat.arrays
  rw [bigSep_W1]
  have h0 : (cfg1.win 0).arr.view.set = Finset.univ := (arr_whole1 0).set_eq_univ
  have h2 : (cfg1.win 2).arr.view.set = Finset.univ := (arr_whole1 2).set_eq_univ
  have h3 : (cfg1.win 3).arr.view.set = Finset.univ := (arr_whole1 3).set_eq_univ
  rw [h0, h2, h3, share1_0, share1_1, share1_2, share1_3]

/-- Entering the region: the core's unscoped buffers at `V` are the pipeline's arrays at their entry contents — the
    feature array's hold halved between its two windows — and the buffers the region does not stage. -/
theorem entry1 (c : Dev nD) :
    (unscopedBufs (Ix := Unit) (Name := ℕ) (U := UR sig nD τ) (Lvl := ℕ) c (V c) : sProp 𝕄)
      ⊢ iprop((dat1 V c).arrays ((dat1 V c).arrAt · 0) ∗ Pipeline.unscopedRest spec1 c (V c)) := by
  have hs : (unscopedBufs c (V c) : sProp 𝕄) = iprop(Pipeline.arrBufs spec1 c (V c) ∗ Pipeline.unscopedRest spec1 c (V c)) :=
    Pipeline.unscopedBufs_split₀ cfgs 1 winFacts₀1.arr_unscoped c (V c)
  rw [hs, arrBufs1_eq, arrays1_eq]
  iintro ⟨⟨H1, H2, H3⟩, Hr⟩
  have hhalve : ((((c : Thread nD τ).loc main_v1) ↦{fullShare} V c main_v1 : sProp 𝕄))
      ⊢ iprop((((c : Thread nD τ).loc main_v1) ↦{fullShare.left} V c main_v1) ∗ (((c : Thread nD τ).loc main_v1) ↦{fullShare.right} V c main_v1)) :=
    (pointsTo_share (PosShare.mem_left_op_right fullShare)).1
  ihave H1' := hhalve $$ H1
  icases H1' with ⟨Hl, Hrt⟩
  isplitr [Hr]
  · isplitl [Hl]; · iexact Hl
    isplitl [Hrt]; · iexact Hrt
    isplitl [H2]; · iexact H2
    iexact H3
  iexact Hr

/-- Leaving the region: the pipeline's arrays at their final contents — the feature array's two halves joined, the
    output array at what the write-backs left — and the buffers the region did not stage are the core's unscoped
    buffers at any contents `V'` that hold the output array so and agree with `V` elsewhere. -/
theorem exit1 (c : Dev nD) (V' : (b : Ref sig .tc) → Buf (Elt F) ((c : Thread nD τ).loc b))
    (hout : V' main_v2 = (dat1 V c).arrAt 3 cfg1.N) (hrest : ∀ b : Ref sig .tc, b ≠ main_v2 → V' b = V c b) :
    iprop((dat1 V c).arrays ((dat1 V c).arrAt · cfg1.N) ∗ Pipeline.unscopedRest spec1 c (V c))
      ⊢ (unscopedBufs (Ix := Unit) (Name := ℕ) (U := UR sig nD τ) (Lvl := ℕ) c V' : sProp 𝕄) := by
  have hs : (unscopedBufs c V' : sProp 𝕄) = iprop(Pipeline.arrBufs spec1 c V' ∗ Pipeline.unscopedRest spec1 c V') :=
    Pipeline.unscopedBufs_split₀ cfgs 1 winFacts₀1.arr_unscoped c V'
  have hr : (Pipeline.unscopedRest (Ix := Unit) (Name := ℕ) (U := UR sig nD τ) (Lvl := ℕ) spec1 c V' : sProp 𝕄)
      = Pipeline.unscopedRest spec1 c (V c) := by
    unfold Pipeline.unscopedRest
    exact bigSep_congr fun b hb => by
      rw [hrest b (fun e => (Finset.mem_sdiff.mp hb).2 (Finset.mem_image.mpr ⟨3, Finset.mem_univ _, e.symm⟩))]
  have e0 : (dat1 V c).arrAt 0 cfg1.N = V' main_v1 :=
    ((dat1 V c).arrAt_in 0 rfl _).trans ((A_eq1 V c 0).trans (hrest main_v1 (by decide)).symm)
  have e1 : (dat1 V c).arrAt 1 cfg1.N = V' main_v1 :=
    ((dat1 V c).arrAt_in 1 rfl _).trans ((A_eq1 V c 1).trans (hrest main_v1 (by decide)).symm)
  have e2 : (dat1 V c).arrAt 2 cfg1.N = V' main_arg2 :=
    ((dat1 V c).arrAt_in 2 rfl _).trans ((A_eq1 V c 2).trans (hrest main_arg2 (by decide)).symm)
  rw [hs, hr, arrBufs1_eq, arrays1_eq]
  dsimp only
  rw [e0, e1, e2, ← hout]
  iintro ⟨⟨Hl, Hrt, H2, H3⟩, Hr⟩
  isplitr [Hr]
  · isplitl [Hl Hrt]
    · iapply (pointsTo_share (PosShare.mem_left_op_right fullShare)).2
      isplitl [Hl]; · iexact Hl
      iexact Hrt
    isplitl [H2]; · iexact H2
    iexact H3
  iexact Hr

end Cert.KernelIdeal.Hand

end
-- ==== Proof.KernelIdealRun.lean ====
/-
  The whole program's run: a reshape of the bias on the host, then the two pallas_calls.

  The contents of the core's unscoped buffers are followed from the launch memory through the program: after the host
  reshape; after the first pallas_call, which leaves the new-features array at what its write-backs make of it and
  every other buffer as it was; after the second, which leaves the force array so. Each pallas_call is entered from
  "every unscoped buffer whole at the contents so far", deals its arrays out of them, runs its pipeline under the body
  obligation, and puts the arrays back at their final contents. At the end the final memory holds every unscoped buffer
  at the last contents: the arguments as launched, the two results at the pipelines' final arrays.
-/
import proofs.«154171_j12197707120647_1_alg».proof.Proof.KernelIdealDat0
import proofs.«154171_j12197707120647_1_alg».proof.Proof.KernelIdealShare1
import Idealize.ShloMosaic.Lib.Pipeline.RegionsLoop
import Idealize.ShloMosaic.Lib.Pipeline.FrameSuffix

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents from the launch to the return -/

/-- Core `c`'s buffers at launch. -/
abbrev W0 : Dev nD → Valuation τ sig (Elt F) := fun c b => (s₀ m ρ).mem ((c : Dev nD), b)
/-- After the host reshape of the bias (the first pallas_call's entry). -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- After the first pallas_call: its arrays at what the pipeline leaves, every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After the second pallas_call: the force array at what the pipeline leaves, every other buffer as entered. -/
def W3 (c : Dev nD) : Valuation τ sig (Elt F) :=
  Function.update (W2 m ρ c) (Proc.devRef .tc (Pipeline.arrRef spec1 3)) ((dat1 (V2 m ρ) c).arrAt 3 cfg1.N)
abbrev V3 : (c : Dev nD) → (b : Ref sig .tc) → Buf (Elt F) ((c : Thread nD τ).loc b) := fun c b => W3 m ρ c b
theorem V3_force (c : Dev nD) : V3 m ρ c main_v2 = (dat1 (V2 m ρ) c).arrAt 3 cfg1.N := by
  show W3 m ρ c (Proc.devRef .tc (Pipeline.arrRef spec1 3)) = _
  unfold W3; exact Function.update_self ..
theorem V3_of_ne (c : Dev nD) (b : Ref sig .tc) (hb : b ≠ main_v2) : V3 m ρ c b = V2 m ρ c b := by
  show W3 m ρ c (Proc.devRef .tc b) = W2 m ρ c (Proc.devRef .tc b)
  unfold W3; exact Function.update_of_ne (StableHlo.devRef_ne_of_ne hb) ..

/-! ## The proof data family and the thread state -/

abbrev adm : (p : Fin 2) → (pcfgs (F := F) p).Adm := fun p => (cfgs p).toPCfg_adm
/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V2 m ρ) c
abbrev 𝒱₀ : Variants := Variants.none
abbrev L : GSem nD τ sig → Finset Unit := fun _ => ∅
abbrev lv : GSem nD τ sig → Unit → ℕ := fun _ _ => 0
/-- What rides beside the buffers through every segment: the core's generator register at some state and its dues, at
    nothing. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem hostOps0_fresh : (hostOps0 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues: every unscoped buffer at the last contents, the generator register at some
    state. -/
abbrev Tₙ (c : Dev nD) : sProp 𝕄 := iprop(StableHlo.held (c : Thread nD τ) (Pipeline.ucRefs τ sig) (W3 m ρ c) ∗ ∃ r, prngReg c r)

/-! ## The pallas_calls as segments -/

set_option backward.isDefEq.respectTransparency.types false in
/-- The first pallas_call: entered from every unscoped buffer at `W1`, left at `W2`. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The second pallas_call: entered from every unscoped buffer at `W2`, left at `W3`. The feature array, read through
    two windows, is dealt to them in halves and joined again at the exit. -/
def reg1 : Pipeline.RegionSeg (pcfgs (F := F)) adm (pdats m ρ) () defs₀ 𝒱₀ L lv 1 where
  win := winFacts₀1
  block_pos := block_pos1
  stage_whole := stage_whole1
  K := PEmpty
  osem k := k.elim
  ho := Pipeline.OwnSemFacts.none _
  hbody c := (body_obligation1 (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := entry1 (V2 m ρ) c
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := exit1 (V2 m ρ) c (V3 m ρ c) (V3_force m ρ c) (fun b hb => V3_of_ne m ρ c b hb)
    rw [Pipeline.unscopedBufs_held] at hjoin
    iintro ⟨Ha, HO, HY, Hrest⟩
    imodintro
    isplitl [Ha Hrest HY]
    · isplitl [Ha Hrest]
      · iapply hjoin
        isplitl [Ha]; · iexact Ha
        iexact Hrest
      iexact HY
    unfold Pipeline.Dat.owesAt Pipeline.owesWithin
    icases HO with ⟨%W, -, HO⟩; iexists W; iexact HO

/-! ## The program as segments, and the launch -/

abbrev segs : List (Pipeline.Seg (pcfgs (F := F)) adm (pdats m ρ) () defs₀ 𝒱₀ L lv) :=
  [ .host (hseg hostOps0 hostOps0_sub hostOps0_fresh (W0 m ρ)),
    .region (reg0 m ρ),
    .region (reg1 m ρ) ]
theorem main_run (c : Dev nD) : main (F := F) c = Pipeline.Seg.run (segs m ρ) := (main_chain c).trans (by chain_rfl)

set_option backward.isDefEq.respectTransparency.types false in
/-- THE RUN: from any memory with zero counters every weakly fair execution of the program terminates, and in every
    final state each unscoped buffer holds the last contents `W3`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W3 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h c => h c)

end Cert.KernelIdeal.Hand

end
-- ==== Proof.KernelIdealResults.lean ====
/-
  What the final memory holds, read off the run: the arguments as launched, the new-features array at what the first
  pipeline's write-backs leave of the region's inputs, the force array at what the second pipeline's leave of the
  new-features array and the weights.
-/
import proofs.«154171_j12197707120647_1_alg».proof.Proof.KernelIdealRun
import Idealize.ShloMosaic.Lib.StableHlo.Run

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The host stretch writes the reshaped bias only. -/
theorem hostOps0_writes : (hostOps0 : List (HloOp τ sig (Elt F))).Forall fun op => op.writes ⊆ (([main_v0] : List (Ref sig .tc)).map (Proc.devRef (τ := τ) .tc)).toFinset := by
  simp only [List.Forall]; exact (by simp only [StableHlo.reshape_writes, Finset.singleton_subset_iff, List.mem_toFinset]; exact List.mem_map_of_mem (by decide))

/-- A buffer the host stretch does not write is as launched when the first pallas_call is entered. -/
theorem V1_of (c : Dev nD) (r : Ref sig .tc) (h : r ∉ ([main_v0] : List (Ref sig .tc))) : V1 m ρ c r = m ((c : Thread nD τ).loc r) :=
  StableHlo.after_of_writes_sub hostOps0 _ hostOps0_writes h

/-- The bias row the first pallas_call reads is the launched bias reshaped to 1x64. -/
theorem V1_bias (c : Dev nD) :
    (V1 m ρ c main_v0 : (⟨S1x64, .f32⟩ : BufTy).Contents (Elt F)) = shapeCast S1x64 (m ((c : Thread nD τ).loc main_arg4)) shapeCasts_S64_S1x64 := by
  show StableHlo.after hostOps0 (W0 m ρ c) (Proc.devRef .tc main_v0) = _
  after_results
  rfl

/-- The feature array the second pallas_call reads is what the first left. -/
theorem V2_nf (c : Dev nD) : V2 m ρ c main_v1 = (dat0 (V1 m ρ) c).arrAt 4 cfg0.N := W2_arr m ρ c 4

/-- The weight array the second pallas_call reads is as launched. -/
theorem V2_weights (c : Dev nD) : V2 m ρ c main_arg2 = m ((c : Thread nD τ).loc main_arg2) :=
  (W2_of_ne m ρ c main_arg2 (by decide)).trans (V1_of m ρ c main_arg2 (by decide))

/-- An array the first pallas_call only reads is, after it, as it was entered. -/
theorem V2_in (c : Dev nD) (w : Fin cfg0.W) (hw : (cfg0.win w).isOut = false) :
    V2 m ρ c (Pipeline.arrRef spec0 w) = V1 m ρ c (Pipeline.arrRef spec0 w) :=
  (W2_arr m ρ c w).trans (((dat0 (V1 m ρ) c).arrAt_in w hw _).trans (A_eq0 (V1 m ρ) c w))

/-- Every argument array ends as launched: no host operation writes one, and each pallas_call reads it through an
    input window or bypasses it. -/
theorem V3_arg0 (c : Dev nD) : V3 m ρ c main_arg0 = m ((c : Thread nD τ).loc main_arg0) :=
  (V3_of_ne m ρ c main_arg0 (by decide)).trans ((V2_in m ρ c 0 rfl).trans (V1_of m ρ c main_arg0 (by decide)))
theorem V3_arg1 (c : Dev nD) : V3 m ρ c main_arg1 = m ((c : Thread nD τ).loc main_arg1) :=
  (V3_of_ne m ρ c main_arg1 (by decide)).trans ((V2_in m ρ c 1 rfl).trans (V1_of m ρ c main_arg1 (by decide)))
theorem V3_arg2 (c : Dev nD) : V3 m ρ c main_arg2 = m ((c : Thread nD τ).loc main_arg2) :=
  (V3_of_ne m ρ c main_arg2 (by decide)).trans (V2_weights m ρ c)
theorem V3_arg3 (c : Dev nD) : V3 m ρ c main_arg3 = m ((c : Thread nD τ).loc main_arg3) :=
  (V3_of_ne m ρ c main_arg3 (by decide)).trans ((V2_in m ρ c 2 rfl).trans (V1_of m ρ c main_arg3 (by decide)))
theorem V3_arg4 (c : Dev nD) : V3 m ρ c main_arg4 = m ((c : Thread nD τ).loc main_arg4) :=
  (V3_of_ne m ρ c main_arg4 (by decide)).trans ((W2_of_ne m ρ c main_arg4 (by decide)).trans (V1_of m ρ c main_arg4 (by decide)))

/-- The new-features array is not touched by the second pallas_call. -/
theorem V3_nf (c : Dev nD) : V3 m ρ c main_v1 = (dat0 (V1 m ρ) c).arrAt 4 cfg0.N :=
  (V3_of_ne m ρ c main_v1 (by decide)).trans (V2_nf m ρ c)

/-- THE RUN, read at the results and the arguments: every weakly fair execution terminates; the force array ends at
    the second pipeline's final array, the new-features array at the first's, each argument as launched. -/
theorem run_main : θ_run defs (onTc (τ := τ) (main (F := F))) ⟨m, fun _ => 0, ρ⟩ (fun r => ∀ c : Dev nD,
      r.2.mem ((c.tc : Thread nD τ).loc main_v2) = (dat1 (V2 m ρ) c).arrAt 3 cfg1.N
      ∧ r.2.mem ((c.tc : Thread nD τ).loc main_v1) = (dat0 (V1 m ρ) c).arrAt 4 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c =>
    ⟨(h c _ (mem_uc main_v2 (by decide))).trans (V3_force m ρ c),
      (h c _ (mem_uc main_v1 (by decide))).trans (V3_nf m ρ c),
      (h c _ (mem_uc main_arg0 (by decide))).trans (V3_arg0 m ρ c),
      (h c _ (mem_uc main_arg1 (by decide))).trans (V3_arg1 m ρ c),
      (h c _ (mem_uc main_arg2 (by decide))).trans (V3_arg2 m ρ c),
      (h c _ (mem_uc main_arg3 (by decide))).trans (V3_arg3 m ρ c),
      (h c _ (mem_uc main_arg4 (by decide))).trans (V3_arg4 m ρ c)⟩) (run_all m ρ)

/-- THE FRAME: every weakly fair execution terminates, nothing faulting, and the argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c => (h c).2.2) (run_main m ρ)

end Cert.KernelIdeal.Hand

end
-- ==== Proof.Spec.lean ====
/-
  What the two programs compute, index by index, on the extended reals.

  New features: row r of the adjacency matrix A aggregates the node features X, and the linear layer (weights W, bias b)
  maps the aggregate to 64 outputs:
      nf(r, o) = Σ_k (Σ_j A(r, j) · X(j, k)) · W(o, k) + b(o).
  Force: the Euclidean distance of feature rows r and c from the expansion |x|² + |y|² − 2 x·y, clamped at zero, the
  square root taken only where the clamped value is positive (elsewhere the entry is zero), times the weight P(r, c):
      force(r, c) = dist(|nf_r|² + |nf_c|² − 2 nf_r·nf_c) · P(r, c).
  Sums over the extended reals are commutative and associative, so no order of summation is left in these terms; the
  float literals (0, 1, 2) stay as the words both programs print.
-/
import Idealize.ShloMosaic.Lib.ValueIdx
import Idealize.ShloMosaic.PureOps.Ideal.Laws

noncomputable section

namespace PairForce

open Idealize.ShloMosaic Idealize.ShloMosaic.ValueIdx

/-- Entry (r, k) of the aggregate A·X. -/
def agg (A : FVec Ideal ⟨2, ![8192, 8192]⟩ .f32) (X : FVec Ideal ⟨2, ![8192, 128]⟩ .f32) (r : Fin 8192) (k : Fin 128) : EReal :=
  ∑ j : Fin 8192, A (ix2 r j) * X (ix2 j k)

/-- Entry (r, o) of the new features: the aggregate through the linear layer, the bias a 1x64 row. -/
def nfAt (A : FVec Ideal ⟨2, ![8192, 8192]⟩ .f32) (X : FVec Ideal ⟨2, ![8192, 128]⟩ .f32) (W : FVec Ideal ⟨2, ![64, 128]⟩ .f32)
    (b : FVec Ideal ⟨2, ![1, 64]⟩ .f32) (r : Fin 8192) (o : Fin 64) : EReal :=
  (∑ k : Fin 128, agg A X r k * W (ix2 o k)) + b (ix2 (0 : Fin 1) o)

/-- The new features as an array. -/
def nf (A : FVec Ideal ⟨2, ![8192, 8192]⟩ .f32) (X : FVec Ideal ⟨2, ![8192, 128]⟩ .f32) (W : FVec Ideal ⟨2, ![64, 128]⟩ .f32)
    (b : FVec Ideal ⟨2, ![1, 64]⟩ .f32) : FVec Ideal ⟨2, ![8192, 64]⟩ .f32 :=
  fun i => nfAt A X W b (i 0) (i 1)

theorem nf_apply (A : FVec Ideal ⟨2, ![8192, 8192]⟩ .f32) (X : FVec Ideal ⟨2, ![8192, 128]⟩ .f32) (W : FVec Ideal ⟨2, ![64, 128]⟩ .f32)
    (b : FVec Ideal ⟨2, ![1, 64]⟩ .f32) (r : Fin 8192) (o : Fin 64) : nf A X W b (ix2 r o) = nfAt A X W b r o := rfl

/-- The squared norm of feature row r (the sum started from the zero word). -/
def sq (N : FVec Ideal ⟨2, ![8192, 64]⟩ .f32) (r : Fin 8192) : EReal :=
  Ideal.ofBits .f32 0x00000000#32 + ∑ k : Fin 64, N (ix2 r k) * N (ix2 r k)

/-- The inner product of feature rows r and c. -/
def cross (N : FVec Ideal ⟨2, ![8192, 64]⟩ .f32) (r c : Fin 8192) : EReal :=
  ∑ k : Fin 64, N (ix2 r k) * N (ix2 c k)

/-- The clamped squared distance from the two squared norms and the inner product. -/
def d2Of (sr sc x : EReal) : EReal :=
  max ((sr + sc) - Ideal.ofBits .f32 0x40000000#32 * x) (Ideal.ofBits .f32 0x00000000#32)

/-- The distance from the clamped squared distance: its square root where it is positive, zero elsewhere (the
    root's argument replaced by one where it is not positive). -/
def distOf (d2 : EReal) : EReal :=
  Scalar.select (FloatOps.cmpf (F := Ideal) (φ := .f32) .ogt d2 (Ideal.ofBits .f32 0x00000000#32))
    (Ideal.sqrt (Scalar.select (FloatOps.cmpf (F := Ideal) (φ := .f32) .ogt d2 (Ideal.ofBits .f32 0x00000000#32)) d2 (Ideal.ofBits .f32 0x3F800000#32)))
    (Ideal.ofBits .f32 0x00000000#32)

/-- Entry (r, c) of the force. -/
def forceAt (N : FVec Ideal ⟨2, ![8192, 64]⟩ .f32) (P : FVec Ideal ⟨2, ![8192, 8192]⟩ .f32) (r c : Fin 8192) : EReal :=
  distOf (d2Of (sq N r) (sq N c) (cross N r c)) * P (ix2 r c)

/-- The force as an array. -/
def force (N : FVec Ideal ⟨2, ![8192, 64]⟩ .f32) (P : FVec Ideal ⟨2, ![8192, 8192]⟩ .f32) : FVec Ideal ⟨2, ![8192, 8192]⟩ .f32 :=
  fun i => forceAt N P (i 0) (i 1)

theorem force_apply (N : FVec Ideal ⟨2, ![8192, 64]⟩ .f32) (P : FVec Ideal ⟨2, ![8192, 8192]⟩ .f32) (r c : Fin 8192) :
    force N P (ix2 r c) = forceAt N P r c := rfl

end PairForce

end
-- ==== Proof.KernelIdealNfValue.lean ====
/-
  What the first pallas_call leaves in the new-features array, at the ideal values.

  Its 32 grid points write back disjoint 256-row stripes that tile the 8192x64 array, so the array after the last
  point is one function of the region's input arrays: entry (r, o) is the body's term of row r's stripe, which is
  Σ_k (Σ_j A(r, j)·X(j, k))·W(o, k) + b(0, o) — two matrix products into zero accumulators (a change of float format
  is the identity at the ideal values), the weights transposed, the bias row broadcast along the rows.
-/
import proofs.«154171_j12197707120647_1_alg».proof.Proof.KernelIdealDat0
import proofs.«154171_j12197707120647_1_alg».proof.Proof.Spec
import Idealize.ShloMosaic.Lib.Pipeline.Value
import Idealize.ShloMosaic.Lib.ValueLayout

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

open Idealize.ShloMosaic.ValueIdx

/-! ## The two matrix products' operand indices

For a product that contracts the left operand's axis 1 with the right operand's axis 0, the left operand is read at
(row of the result, contraction index) and the right at (contraction index, column of the result). -/

/-- Aggregation A·X: the left operand's row is the result's row. -/
theorem agg_lhs_0 (i : S256x128.Idx) (q : dot_S256x8192_S8192x128_S256x128_1_0_0_1_n_n.contr.Idx) :
    (dot_S256x8192_S8192x128_S256x128_1_0_0_1_n_n.lhsIdx i q 0).val = (i 0).val := by
  unfold DotDims.lhsIdx
  rw [dif_neg (show ¬(0 : Fin S256x8192.rank) ∈ dot_S256x8192_S8192x128_S256x128_1_0_0_1_n_n.lhsBatch by decide), dif_pos (show (0 : Fin S256x8192.rank) ∈ dot_S256x8192_S8192x128_S256x128_1_0_0_1_n_n.lhsNonContracting by decide)]
  rfl
/-- Its column is the contraction index. -/
theorem agg_lhs_1 (i : S256x128.Idx) (q : dot_S256x8192_S8192x128_S256x128_1_0_0_1_n_n.contr.Idx) :
    (dot_S256x8192_S8192x128_S256x128_1_0_0_1_n_n.lhsIdx i q 1).val = (q ⟨0, by decide⟩).val :=
  dot_S256x8192_S8192x128_S256x128_1_0_0_1_n_n.lhsIdx_val_of_single rfl i q
/-- The right operand's row is the contraction index. -/
theorem agg_rhs_0 (i : S256x128.Idx) (q : dot_S256x8192_S8192x128_S256x128_1_0_0_1_n_n.contr.Idx) :
    (dot_S256x8192_S8192x128_S256x128_1_0_0_1_n_n.rhsIdx i q 0).val = (q ⟨0, by decide⟩).val :=
  dot_S256x8192_S8192x128_S256x128_1_0_0_1_n_n.rhsIdx_val_of_single rfl i q
/-- Its column is the result's column. -/
theorem agg_rhs_1 (i : S256x128.Idx) (q : dot_S256x8192_S8192x128_S256x128_1_0_0_1_n_n.contr.Idx) :
    (dot_S256x8192_S8192x128_S256x128_1_0_0_1_n_n.rhsIdx i q 1).val = (i 1).val := by
  unfold DotDims.rhsIdx
  rw [dif_neg (show ¬(1 : Fin S8192x128.rank) ∈ dot_S256x8192_S8192x128_S256x128_1_0_0_1_n_n.rhsBatch by decide), dif_pos (show (1 : Fin S8192x128.rank) ∈ dot_S256x8192_S8192x128_S256x128_1_0_0_1_n_n.rhsNonContracting by decide)]
  rfl

/-- Entry (p, k) of the stripe's aggregate: the sum over the 8192 nodes. -/
theorem aggregate_apply (a : FVec Ideal S256x8192 .bf16) (x : FVec Ideal S8192x128 .bf16) (p : Fin 256) (k : Fin 128) :
    matmul dot_S256x8192_S8192x128_S256x128_1_0_0_1_n_n none a x (constant S256x128 .f32 0x00000000#32) (ix2 p k)
      = ∑ j : Fin 8192, a (ix2 p j) * x (ix2 j k) := by
  simp only [matmul]
  rw [Ideal.matmul_constant_zero_apply, ← Equiv.sum_comp (contrEquiv1 dot_S256x8192_S8192x128_S256x128_1_0_0_1_n_n 8192 rfl rfl).symm]
  refine Finset.sum_congr rfl fun j _ => ?_
  have hj := contrEquiv1_symm_val dot_S256x8192_S8192x128_S256x128_1_0_0_1_n_n 8192 rfl rfl j
  have el : dot_S256x8192_S8192x128_S256x128_1_0_0_1_n_n.lhsIdx (ix2 p k) ((contrEquiv1 dot_S256x8192_S8192x128_S256x128_1_0_0_1_n_n 8192 rfl rfl).symm j) = ix2 p j := funext fun b => Fin.ext (by
    match b with
    | ⟨0, _⟩ => exact agg_lhs_0 _ _
    | ⟨1, _⟩ => exact (agg_lhs_1 _ _).trans hj)
  have er : dot_S256x8192_S8192x128_S256x128_1_0_0_1_n_n.rhsIdx (ix2 p k) ((contrEquiv1 dot_S256x8192_S8192x128_S256x128_1_0_0_1_n_n 8192 rfl rfl).symm j) = ix2 j k := funext fun b => Fin.ext (by
    match b with
    | ⟨0, _⟩ => exact (agg_rhs_0 _ _).trans hj
    | ⟨1, _⟩ => exact agg_rhs_1 _ _)
  rw [el, er]

/-- Linear layer H·Wᵀ: the left operand's row is the result's row. -/
theorem lin_lhs_0 (i : S256x64.Idx) (q : dot_S256x128_S128x64_S256x64_1_0_0_1_n_n.contr.Idx) :
    (dot_S256x128_S128x64_S256x64_1_0_0_1_n_n.lhsIdx i q 0).val = (i 0).val := by
  unfold DotDims.lhsIdx
  rw [dif_neg (show ¬(0 : Fin S256x128.rank) ∈ dot_S256x128_S128x64_S256x64_1_0_0_1_n_n.lhsBatch by decide), dif_pos (show (0 : Fin S256x128.rank) ∈ dot_S256x128_S128x64_S256x64_1_0_0_1_n_n.lhsNonContracting by decide)]
  rfl
/-- Its column is the contraction index. -/
theorem lin_lhs_1 (i : S256x64.Idx) (q : dot_S256x128_S128x64_S256x64_1_0_0_1_n_n.contr.Idx) :
    (dot_S256x128_S128x64_S256x64_1_0_0_1_n_n.lhsIdx i q 1).val = (q ⟨0, by decide⟩).val :=
  dot_S256x128_S128x64_S256x64_1_0_0_1_n_n.lhsIdx_val_of_single rfl i q
/-- The right operand's row is the contraction index. -/
theorem lin_rhs_0 (i : S256x64.Idx) (q : dot_S256x128_S128x64_S256x64_1_0_0_1_n_n.contr.Idx) :
    (dot_S256x128_S128x64_S256x64_1_0_0_1_n_n.rhsIdx i q 0).val = (q ⟨0, by decide⟩).val :=
  dot_S256x128_S128x64_S256x64_1_0_0_1_n_n.rhsIdx_val_of_single rfl i q
/-- Its column is the result's column. -/
theorem lin_rhs_1 (i : S256x64.Idx) (q : dot_S256x128_S128x64_S256x64_1_0_0_1_n_n.contr.Idx) :
    (dot_S256x128_S128x64_S256x64_1_0_0_1_n_n.rhsIdx i q 1).val = (i 1).val := by
  unfold DotDims.rhsIdx
  rw [dif_neg (show ¬(1 : Fin S128x64.rank) ∈ dot_S256x128_S128x64_S256x64_1_0_0_1_n_n.rhsBatch by decide), dif_pos (show (1 : Fin S128x64.rank) ∈ dot_S256x128_S128x64_S256x64_1_0_0_1_n_n.rhsNonContracting by decide)]
  rfl

/-- Entry (p, o) of the stripe's aggregate through the (already transposed) weights: the sum over the 128 features. -/
theorem linear_apply (h : FVec Ideal S256x128 .bf16) (w : FVec Ideal S128x64 .bf16) (p : Fin 256) (o : Fin 64) :
    matmul dot_S256x128_S128x64_S256x64_1_0_0_1_n_n none h w (constant S256x64 .f32 0x00000000#32) (ix2 p o)
      = ∑ k : Fin 128, h (ix2 p k) * w (ix2 k o) := by
  simp only [matmul]
  rw [Ideal.matmul_constant_zero_apply, ← Equiv.sum_comp (contrEquiv1 dot_S256x128_S128x64_S256x64_1_0_0_1_n_n 128 rfl rfl).symm]
  refine Finset.sum_congr rfl fun k _ => ?_
  have hk := contrEquiv1_symm_val dot_S256x128_S128x64_S256x64_1_0_0_1_n_n 128 rfl rfl k
  have el : dot_S256x128_S128x64_S256x64_1_0_0_1_n_n.lhsIdx (ix2 p o) ((contrEquiv1 dot_S256x128_S128x64_S256x64_1_0_0_1_n_n 128 rfl rfl).symm k) = ix2 p k := funext fun b => Fin.ext (by
    match b with
    | ⟨0, _⟩ => exact lin_lhs_0 _ _
    | ⟨1, _⟩ => exact (lin_lhs_1 _ _).trans hk)
  have er : dot_S256x128_S128x64_S256x64_1_0_0_1_n_n.rhsIdx (ix2 p o) ((contrEquiv1 dot_S256x128_S128x64_S256x64_1_0_0_1_n_n 128 rfl rfl).symm k) = ix2 k o := funext fun b => Fin.ext (by
    match b with
    | ⟨0, _⟩ => exact (lin_rhs_0 _ _).trans hk
    | ⟨1, _⟩ => exact lin_rhs_1 _ _)
  rw [el, er]

/-- The transposed weights at (k, o) are the weights at (o, k). -/
theorem weightsT_apply {α : Type} (w : S64x128.Idx → α) (hT : S64x128.Transposes [1, 0] S128x64) (k : Fin 128) (o : Fin 64) :
    transpose S128x64 [1, 0] w hT (ix2 k o) = w (ix2 o k) :=
  transpose_apply [1, 0] w hT (ix2 k o) (ix2 o k) (fun b => match b with
    | ⟨0, _⟩ => rfl
    | ⟨1, _⟩ => rfl)

/-- The bias row broadcast along the 256 rows reads the row's entry of the same column. -/
theorem biasRows_apply {α : Type} (b : S1x64.Idx → α) (hB : S1x64.Broadcasts S256x64) (p : Fin 256) (o : Fin 64) :
    broadcastTo S256x64 b hB (ix2 p o) = b (ix2 (0 : Fin 1) o) :=
  broadcastTo_apply b hB (ix2 p o) (ix2 (0 : Fin 1) o) (fun a => match a with
    | ⟨0, _⟩ => rfl
    | ⟨1, _⟩ => rfl)

/-- The body's term at row p of the stripe and output o: the stripe's aggregate through the linear layer plus the bias. -/
theorem stripe_pay_apply (xF : Vec Ideal S256x8192 .f32) (xX : Vec Ideal S8192x128 .f32) (xW : Vec Ideal S64x128 .f32)
    (xB : Vec Ideal S1x64 .f32) (p : Fin 256) (o : Fin 64) :
    k0_pay1 xF xX xW xB (ix2 p o)
      = (∑ k : Fin 128, (∑ j : Fin 8192, xF (ix2 p j) * xX (ix2 j k)) * xW (ix2 o k)) + xB (ix2 (0 : Fin 1) o) := by
  unfold k0_pay1
  dsimp only
  rw [addf_apply, linear_apply, biasRows_apply, shapeCast_self]
  congr 1
  refine Finset.sum_congr rfl fun k _ => ?_
  rw [truncf_apply, aggregate_apply, weightsT_apply, truncf_apply]
  simp only [truncf_apply]

/-! ## From a stripe's entry to the specification's entry -/

theorem hz : (![0, 0] : Fin 2 → Nat) = fun _ => 0 := funext fun a => by fin_cases a <;> rfl

/-- Row p of stripe s is row s·256 + p of the array: when the adjacency block holds those rows of A and the three
    other blocks are X, W and b themselves, the body's term at (p, o) is the new features' entry (s·256 + p, o). -/
theorem stripe_entry (A : FVec Ideal S8192x8192 .f32) (X : FVec Ideal S8192x128 .f32) (W : FVec Ideal S64x128 .f32)
    (B : FVec Ideal S1x64 .f32)
    (xF : Vec Ideal S256x8192 .f32) (xX : Vec Ideal S8192x128 .f32) (xW : Vec Ideal S64x128 .f32) (xB : Vec Ideal S1x64 .f32)
    (s : ℕ)
    (hF : ∀ (x : S256x8192.Idx) (k : S8192x8192.Idx), (k 0).val = s * 256 + (x 0).val → (k 1).val = (x 1).val → xF x = A k)
    (hX : xX = X) (hW : xW = W) (hB : xB = B)
    (y : S256x64.Idx) (i : S8192x64.Idx) (h0 : (i 0).val = s * 256 + (y 0).val) (h1 : (i 1).val = (y 1).val) :
    k0_pay1 xF xX xW xB y = PairForce.nf A X W B i := by
  obtain ⟨p, o, rfl⟩ : ∃ (p : Fin 256) (o : Fin 64), y = ix2 p o := ⟨y 0, y 1, eq_ix2 y⟩
  obtain ⟨r, o', rfl⟩ : ∃ (r : Fin 8192) (o' : Fin 64), i = ix2 r o' := ⟨i 0, i 1, eq_ix2 i⟩
  obtain rfl : o' = o := Fin.ext h1
  subst hX hW hB
  rw [stripe_pay_apply, PairForce.nf_apply]
  unfold PairForce.nfAt PairForce.agg
  congr 1
  refine Finset.sum_congr rfl fun k _ => ?_
  congr 1
  refine Finset.sum_congr rfl fun j _ => ?_
  rw [hF (ix2 p j) (ix2 r j) h0 rfl]

/-! ## The blocks the pipeline hands the body -/

/-- The index maps, decided once over the 32 grid points: the adjacency stripe and the output stripe sit at row block
    t, every other block index is zero. -/
theorem stripe_index : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0 :=
  (by decide +kernel : ∀ t : Fin grid0.N, _)

section Blocks

variable (V : (c : Dev nD) → (b : Ref sig .tc) → Buf (Elt Ideal) ((c : Thread nD τ).loc b))

/-- The adjacency block at point t is rows t·256 … t·256 + 255 of the adjacency matrix. -/
theorem adjStripe_apply (c : Dev nD) (t : Fin cfg0.N) (x : S256x8192.Idx) (k : S8192x8192.Idx)
    (hk0 : (k 0).val = t.val * 256 + (x 0).val) (hk1 : (k 1).val = (x 1).val) :
    (iblk0 V c 0 t : Vec Ideal S256x8192 .f32) x = (V c main_arg0 : S8192x8192.Idx → EReal) k := by
  obtain ⟨e0, e1, -⟩ := stripe_index t
  unfold iblk0
  rw [View.read_apply]
  show V c main_arg0 _ = V c main_arg0 _
  congr 1
  funext a
  apply Fin.ext
  match a with
  | ⟨0, _⟩ => show win0_0.index t (0 : Fin 2) * 256 + 1 * (x 0).val = (k 0).val; rw [e0, hk0]; omega
  | ⟨1, _⟩ => show win0_0.index t (1 : Fin 2) * 8192 + 1 * (x 1).val = (k 1).val; rw [e1, hk1]; omega

/-- The feature block is the whole feature matrix at every point. -/
theorem featBlock_eq (c : Dev nD) (t : Fin cfg0.N) :
    (iblk0 V c 1 t : Vec Ideal S8192x128 .f32) = (V c main_arg1 : S8192x128.Idx → EReal) := by
  obtain ⟨-, -, e0, e1, -⟩ := stripe_index t
  funext x
  unfold iblk0
  rw [View.read_apply]
  show V c main_arg1 _ = V c main_arg1 _
  congr 1
  funext a
  apply Fin.ext
  match a with
  | ⟨0, _⟩ => show win0_1.index t (0 : Fin 2) * 8192 + 1 * (x 0).val = (x 0).val; rw [e0]; omega
  | ⟨1, _⟩ => show win0_1.index t (1 : Fin 2) * 128 + 1 * (x 1).val = (x 1).val; rw [e1]; omega

/-- The weight block is the whole weight matrix at every point. -/
theorem weightBlock_eq (c : Dev nD) (t : Fin cfg0.N) :
    (iblk0 V c 2 t : Vec Ideal S64x128 .f32) = (V c main_arg3 : S64x128.Idx → EReal) := by
  obtain ⟨-, -, -, -, e0, e1, -⟩ := stripe_index t
  funext x
  unfold iblk0
  rw [View.read_apply]
  show V c main_arg3 _ = V c main_arg3 _
  congr 1
  funext a
  apply Fin.ext
  match a with
  | ⟨0, _⟩ => show win0_2.index t (0 : Fin 2) * 64 + 1 * (x 0).val = (x 0).val; rw [e0]; omega
  | ⟨1, _⟩ => show win0_2.index t (1 : Fin 2) * 128 + 1 * (x 1).val = (x 1).val; rw [e1]; omega

/-- The bias block is the whole bias row at every point. -/
theorem biasBlock_eq (c : Dev nD) (t : Fin cfg0.N) :
    (iblk0 V c 3 t : Vec Ideal S1x64 .f32) = (V c main_v0 : S1x64.Idx → EReal) := by
  obtain ⟨-, -, -, -, -, -, e0, e1, -⟩ := stripe_index t
  funext x
  unfold iblk0
  rw [View.read_apply]
  show V c main_v0 _ = V c main_v0 _
  congr 1
  funext a
  apply Fin.ext
  match a with
  | ⟨0, _⟩ => show win0_3.index t (0 : Fin 2) * 1 + 1 * (x 0).val = (x 0).val; rw [e0]; omega
  | ⟨1, _⟩ => show win0_3.index t (1 : Fin 2) * 64 + 1 * (x 1).val = (x 1).val; rw [e1]; omega

/-- What point t writes back is block t of the new features of the four arrays as the region finds them. -/
theorem stripe_flushed (c : Dev nD) (t : Fin cfg0.N) :
    (dat0 V c).flushed 4 t
      = ((cfg0.win 4).blk t).view.read (Elt Ideal) (PairForce.nf (V c main_arg0) (V c main_arg1) (V c main_arg3) (V c main_v0)) := by
  show (cfg0.win 4).cut (cfg0.grid.coords t) ((dat0 V c).after 4 t) = _
  rw [after0_4]
  unfold out0
  rw [View.canon_unit_zero hz]
  simp only [View.ld_unit_zero (S := S256x8192) hz, View.ld_unit_zero (S := S8192x128) hz,
    View.ld_unit_zero (S := S64x128) hz, View.ld_unit_zero (S := S1x64) hz]
  obtain ⟨-, -, -, -, -, -, -, -, e0, e1⟩ := stripe_index t
  funext y
  rw [View.read_apply]
  refine stripe_entry (V c main_arg0) (V c main_arg1) (V c main_arg3) (V c main_v0) _ _ _ _ t.val
    (fun x k h0 h1 => adjStripe_apply V c t x k h0 h1) (featBlock_eq V c t) (weightBlock_eq V c t) (biasBlock_eq V c t) _ _ ?_ ?_
  · show win0_4.index t (0 : Fin 2) * 256 + 1 * (y 0).val = t.val * 256 + (y 0).val
    rw [e0]; omega
  · show win0_4.index t (1 : Fin 2) * 64 + 1 * (y 1).val = (y 1).val
    rw [e1]; omega

end Blocks

/-! ## The stripes tile the array -/

/-- An index of the array is in point t's block iff each coordinate is in the block's range on its axis. -/
theorem mem_stripe (t : Fin cfg0.N) (i : S8192x64.Idx) :
    i ∈ ((cfg0.win 4).blk t).view.set
      ↔ ∀ a : Fin 2, win0_4.index t a * S256x64.size a ≤ (i a).val ∧ (i a).val < win0_4.index t a * S256x64.size a + S256x64.size a := by
  show i ∈ ((View.whole main_v1).slice (win0_4.rect t)).set ↔ _
  rw [View.set_slice_whole, Rect.mem_set_unit]
  exact Iff.rfl

/-- Every one of the 32 row blocks is some point's. -/
theorem stripe_onto : ∀ q : Fin 32, ∃ t : Fin cfg0.N, win0_4.index t (0 : Fin 2) = q.val ∧ win0_4.index t (1 : Fin 2) = 0 :=
  (by decide +kernel : ∀ q : Fin 32, ∃ t : Fin grid0.N, win0_4.index t (0 : Fin 2) = q.val ∧ win0_4.index t (1 : Fin 2) = 0)

/-- Row r of the array lies in the stripe of point r / 256, and that point writes its block back. -/
theorem stripes_cover (i : S8192x64.Idx) :
    ∃ t : Fin cfg0.N, (cfg0.win 4).flush t = true ∧ i ∈ ((cfg0.win 4).blk t).view.set := by
  have hi0 : (i 0).val < 8192 := (i 0).isLt
  have hi1 : (i 1).val < 64 := (i 1).isLt
  obtain ⟨t, q0, q1⟩ := stripe_onto ⟨(i 0).val / 256, by omega⟩
  have q0' : win0_4.index t (0 : Fin 2) = (i 0).val / 256 := q0
  refine ⟨t, flush0_4 t, ?_⟩
  rw [mem_stripe]
  intro a
  match a with
  | ⟨0, _⟩ =>
    show win0_4.index t (0 : Fin 2) * 256 ≤ (i 0).val ∧ (i 0).val < win0_4.index t (0 : Fin 2) * 256 + 256
    rw [q0']; omega
  | ⟨1, _⟩ =>
    show win0_4.index t (1 : Fin 2) * 64 ≤ (i 1).val ∧ (i 1).val < win0_4.index t (1 : Fin 2) * 64 + 64
    rw [q1]; omega

/-- After the first pallas_call the new-features array is the specification's array of the four arrays the region
    read (the adjacency matrix, the node features, the weights, the bias row). -/
theorem nf_final (V : (c : Dev nD) → (b : Ref sig .tc) → Buf (Elt Ideal) ((c : Thread nD τ).loc b)) (c : Dev nD) :
    ((dat0 V c).arrAt 4 cfg0.N : S8192x64.Idx → EReal)
      = PairForce.nf (V c main_arg0) (V c main_arg1) (V c main_arg3) (V c main_v0) :=
  (dat0 V c).arrAt_eq_of_cover 4 (PairForce.nf (V c main_arg0) (V c main_arg1) (V c main_arg3) (V c main_v0))
    (fun t _ => stripe_flushed V c t) stripes_cover

end Cert.KernelIdeal.Hand

end
-- ==== Proof.LibProductNT.lean ====
/-
  A matrix times the transpose of another, over the extended reals.

  Entry (a, b) of A·Bᵀ, for an r×k matrix A and an n×k matrix B, is the sum over the shared column coordinate c of
  A(a, c) · B(b, c). Addition of extended reals is commutative and associative, so this is a plain finite sum: no order
  of summation is left in it and nothing asks that an entry be finite.

  The matrix unit forms such a product (both operands contracted along axis 1) and adds it to an accumulator; into a zero
  accumulator it leaves exactly that entry (`matmul_zero_apply`), whatever float formats the factors were narrowed to on
  the way, a change of format being the identity at the ideal values.

  A long row splits into consecutive stretches of equal length: a sum over m·n columns is the sum over the m stretches of
  the sums over each stretch's n columns (`sum_stretches`).
-/
import Idealize.ShloMosaic.Lib.ValueIdx
import Idealize.ShloMosaic.PureOps.Ideal.Laws
import Mathlib.Algebra.BigOperators.Fin
import Mathlib.Logic.Equiv.Fin.Basic

noncomputable section

namespace ProductNT

open Idealize.ShloMosaic Idealize.ShloMosaic.ValueIdx

variable {r k n : Nat}

/-- Entry (a, b) of A·Bᵀ. -/
def entry (A : (⟨2, ![r, k]⟩ : Shape).Idx → EReal) (B : (⟨2, ![n, k]⟩ : Shape).Idx → EReal) (a : Fin r) (b : Fin n) : EReal :=
  ∑ c : Fin k, A (ix2 a c) * B (ix2 b c)

/-- The matrix unit's product of an r×k by an n×k operand, both contracted along their second axis, accumulated into a
    zero block and read at (a, b), is that entry. -/
theorem matmul_zero_apply {φ₁ φ₂ : FTy}
    (w : DotDims.WF ⟨2, ![r, k]⟩ ⟨2, ![n, k]⟩ ⟨2, ![r, n]⟩ [1] [1] [0] [0] [] [])
    (prec : Option ContractPrecision) (A : FVec Ideal ⟨2, ![r, k]⟩ φ₁) (B : FVec Ideal ⟨2, ![n, k]⟩ φ₂) (a : Fin r) (b : Fin n) :
    matmul (⟨[1], [1], [0], [0], [], [], w⟩ : DotDims _ _ _) prec A B (constant (F := Ideal) ⟨2, ![r, n]⟩ .f32 0x00000000#32) (ix2 a b)
      = entry A B a b := by
  show FloatOps.matmul _ prec A B _ (ix2 a b) = _
  rw [Ideal.matmul_constant_zero_apply,
    ← Equiv.sum_comp (contrEquiv1 (⟨[1], [1], [0], [0], [], [], w⟩ : DotDims _ _ _) k rfl rfl).symm]
  refine Finset.sum_congr rfl fun c _ => ?_
  have c2 := contrEquiv1_symm_val
    (⟨[1], [1], [0], [0], [], [], w⟩ : DotDims ⟨2, ![r, k]⟩ ⟨2, ![n, k]⟩ ⟨2, ![r, n]⟩) k rfl rfl c
  have l2 : (⟨[1], [1], [0], [0], [], [], w⟩ : DotDims ⟨2, ![r, k]⟩ ⟨2, ![n, k]⟩ ⟨2, ![r, n]⟩).lhsIdx (ix2 a b)
      ((contrEquiv1 _ k rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [1], [0], [0], [], [], w⟩ : DotDims ⟨2, ![r, k]⟩ ⟨2, ![n, k]⟩ ⟨2, ![r, n]⟩).rhsIdx (ix2 a b)
      ((contrEquiv1 _ k rfl rfl).symm c) = ix2 b c := by
    funext ax; apply Fin.ext
    match ax with
    | ⟨0, _⟩ => simp [DotDims.rhsIdx]; rfl
    | ⟨1, _⟩ => simp [DotDims.rhsIdx]; exact c2
  rw [l2, r2]

/-- A sum over m·n consecutive columns is the sum, over the m stretches of n columns, of each stretch's sum. -/
theorem sum_stretches {M : Type*} [AddCommMonoid M] (m n : Nat) (f : Fin (m * n) → M) :
    ∑ c : Fin (m * n), f c
      = ∑ s : Fin m, ∑ j : Fin n, f ⟨s.val * n + j.val, by
          have hs := s.isLt; have hj := j.isLt
          calc s.val * n + j.val < s.val * n + n := by omega
            _ = (s.val + 1) * n := by ring
            _ ≤ m * n := Nat.mul_le_mul_right n hs⟩ := by
  rw [← Equiv.sum_comp finProdFinEquiv f, Fintype.sum_prod_type]
  refine Finset.sum_congr rfl fun s _ => Finset.sum_congr rfl fun j _ => congrArg f (Fin.ext ?_)
  show j.val + n * s.val = s.val * n + j.val
  rw [Nat.mul_comm, Nat.add_comm]

end ProductNT

end
-- ==== Proof.LibKeepdims.lean ====
/-
  Two layout operations read at an index given by coordinates, for the column a `keepdims` row reduction leaves:
  a vector `[a]` cast to the column `[a, 1]`, and a column `[a, 1]` broadcast along its unit axis to `[a, b]`.
  Both indices are written with the literal-size constructors `ix1`, `ix2`, so that each lemma applies to a printed
  operation by unification, as the library's leading-unit-axis forms of the same operations do.
-/
import Idealize.ShloMosaic.Lib.Pipeline.Value
import Idealize.ShloMosaic.Lib.ValueIdx

namespace Idealize.ShloMosaic.ValueIdx

open Idealize.ShloMosaic

variable {α : Type}

/-- An `[a]` array cast to the column `[a, 1]` reads, at `(i, u)`, the operand at `i`, whatever the unit
    coordinate `u`: both have row-major position `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Idealize.ShloMosaic.ValueIdx
-- ==== Proof.KernelIdealForceValue.lean ====
/-
  What the second kernel leaves in the force array, at the ideal values.

  Its 8x8 grid points write back disjoint 1024x1024 tiles that tile the 8192x8192 array, so the array after the last
  point is one function of the region's input arrays: entry (r, c) is the body's term of the feature rows' blocks that
  hold r and c and of the weight tile that holds (r, c), which is the specification's distance term times P(r, c).

  The steps. (1) The body's term at entry (p, q) of a tile: the lane sums are the squared norms of row p of the row tile
  and of row q of the column tile (the zero word they start from is the sum's neutral element), the matrix product with
  the column tile transposed is their inner product, the column of squared norms is broadcast along the rows and its
  transpose along the columns; the rest is entrywise, and is the specification's distance term. (2) At every grid point
  the row tile is block (i, 0) of the feature array, the column tile its block (j, 0) and the weight tile block (i, j) of
  the weights, so what the point writes back is tile (i, j) of the specification's force. (3) The 8x8 tiles cover the
  array: entry (r, c) lies in tile (r / 1024, c / 1024).
-/
import proofs.«154171_j12197707120647_1_alg».proof.Proof.KernelIdealDat1
import proofs.«154171_j12197707120647_1_alg».proof.Proof.Spec
import proofs.«154171_j12197707120647_1_alg».proof.Proof.LibProductNT
import proofs.«154171_j12197707120647_1_alg».proof.Proof.LibKeepdims
import Idealize.ShloMosaic.Lib.Pipeline.Value
import Idealize.ShloMosaic.Lib.ValueLayout

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

open Idealize.ShloMosaic.ValueIdx

/-- The index of a 1024x64 block that a row's lane sum visits at lane k is (p, k). -/
theorem rowLane_lift (p : Fin 1024) (k : Fin 64) :
    reduces_S1024x64_S1024.lift (ix1 p) k = (ix2 p k : S1024x64.Idx) :=
  funext fun a => Fin.ext (by match a with | ⟨0, _⟩ => rfl | ⟨1, _⟩ => rfl)

/-- The squared norm of row p of a 1024x64 block: the lane sum of the entrywise squares, started from the zero word
    (the neutral element of the sum, so no term of it is left). -/
theorem rowSq_apply (x : Vec Ideal S1024x64 .f32) (hφ : FKind.Formats .f32)
    (hacc : (0x00000000#32 : BitVec 32) = 0x00000000#32) (p : Fin 1024) :
    multiReduction (F := Ideal) .add [1] S1024 (mulf x x) 0x00000000#32 reduces_S1024x64_S1024 hφ hacc (ix1 p)
      = ∑ k : Fin 64, x (ix2 p k) * x (ix2 p k) :=
  (Ideal.multiReduction_add_single (mulf x x) 0x00000000#32 reduces_S1024x64_S1024 hφ hacc (ix1 p)).trans
    (Finset.sum_congr rfl fun k _ => congrArg (fun i : S1024x64.Idx => x i * x i) (rowLane_lift p k))

/-- The cross term: the row tile times the transposed column tile, into a zero block, at (p, q), is the inner product
    of row p of the one and row q of the other. -/
theorem cross_apply (xI xJ : FVec Ideal S1024x64 .f32) (p q : Fin 1024) :
    matmul dot_S1024x64_S1024x64_S1024x1024_1_1_0_0_n_n (some .fp32) xI xJ
        (constant (F := Ideal) S1024x1024 .f32 0x00000000#32) (ix2 p q)
      = ∑ k : Fin 64, xI (ix2 p k) * xJ (ix2 q k) :=
  ProductNT.matmul_zero_apply dot_S1024x64_S1024x64_S1024x1024_1_1_0_0_n_n_wf (some .fp32) xI xJ p q

/-- The entrywise square root at an index. -/
theorem tileSqrt_apply (a : FVec Ideal S1024x1024 .f32) (i : S1024x1024.Idx) : sqrt (F := Ideal) a i = Ideal.sqrt (a i) := rfl

/-- The body's term at entry (p, q) of the tile: the distance from the squared norms of row p of the row tile and of
    row q of the column tile and from their inner product, times the weight tile's entry. -/
theorem pay_apply (xI xJ : Vec Ideal S1024x64 .f32) (xP : Vec Ideal S1024x1024 .f32) (p q : Fin 1024) :
    k1_pay1 xI xJ xP (ix2 p q)
      = PairForce.distOf (PairForce.d2Of (∑ k : Fin 64, xI (ix2 p k) * xI (ix2 p k)) (∑ k : Fin 64, xJ (ix2 q k) * xJ (ix2 q k))
          (∑ k : Fin 64, xI (ix2 p k) * xJ (ix2 q k))) * xP (ix2 p q) := by
  unfold k1_pay1
  dsimp only
  simp only [shapeCast_self]
  simp only [mulf_apply, select_apply, cmpf_apply, maximumf_apply, subf_apply, addf_apply, broadcast_apply, tileSqrt_apply]
  rw [broadcastTo_a1_ab_apply, shapeCast_a_a1_apply, rowSq_apply, broadcastTo_1b_ab_apply, transpose_ix2_apply,
    shapeCast_a_a1_apply, rowSq_apply, cross_apply]
  rfl

/-- The whole-tile rectangles start at zero offsets. -/
theorem zero_offsets : (![0, 0] : Fin 2 → Nat) = fun _ => 0 :=
  funext fun a => by match a with | ⟨0, _⟩ => rfl | ⟨1, _⟩ => rfl

/-- The printed index maps, decided over the 8x8 grid: at every point the row tile's block row is the output tile's
    block row, the column tile's block row is the output tile's block COLUMN, both feature windows sit at block column
    zero, and the weight tile moves with the output tile. -/
theorem tile_index_facts : ∀ t : Fin cfg1.N,
    win1_0.index t (0 : Fin 2) = win1_3.index t (0 : Fin 2) ∧ win1_0.index t (1 : Fin 2) = 0
    ∧ win1_1.index t (0 : Fin 2) = win1_3.index t (1 : Fin 2) ∧ win1_1.index t (1 : Fin 2) = 0
    ∧ win1_2.index t (0 : Fin 2) = win1_3.index t (0 : Fin 2) ∧ win1_2.index t (1 : Fin 2) = win1_3.index t (1 : Fin 2) :=
  (by decide +kernel : ∀ t : Fin grid1.N, _)

/-- Every one of the 8x8 output tiles is some grid point's. -/
theorem tile_index_onto : ∀ (q0 q1 : Fin 8), ∃ t : Fin cfg1.N, win1_3.index t = ![q0.val, q1.val] :=
  (by decide +kernel : ∀ (q0 q1 : Fin 8), ∃ t : Fin grid1.N, win1_3.index t = ![q0.val, q1.val])

/-- An entry of the force array is in point t's tile iff each coordinate is in the tile's range on its axis. -/
theorem mem_tile (t : Fin cfg1.N) (i : S8192x8192.Idx) :
    i ∈ ((cfg1.win 3).blk t).view.set ↔ ∀ a : Fin 2, win1_3.index t a * S1024x1024.size a ≤ (i a).val
      ∧ (i a).val < win1_3.index t a * S1024x1024.size a + S1024x1024.size a := by
  show i ∈ ((View.whole main_v2).slice (win1_3.rect t)).set ↔ _
  rw [View.set_slice_whole, Rect.mem_set_unit]
  exact Iff.rfl

/-- The tiles cover the force array: entry (r, c) is in the tile with block coordinates (r / 1024, c / 1024). -/
theorem tiles_cover (i : S8192x8192.Idx) :
    ∃ t : Fin cfg1.N, (cfg1.win 3).flush t = true ∧ i ∈ ((cfg1.win 3).blk t).view.set := by
  have hi0 : (i 0).val < 8192 := (i 0).isLt
  have hi1 : (i 1).val < 8192 := (i 1).isLt
  obtain ⟨t, ht⟩ := tile_index_onto ⟨(i 0).val / 1024, by omega⟩ ⟨(i 1).val / 1024, by omega⟩
  have q0 : win1_3.index t (0 : Fin 2) = (i 0).val / 1024 := congrFun ht 0
  have q1 : win1_3.index t (1 : Fin 2) = (i 1).val / 1024 := congrFun ht 1
  refine ⟨t, flush1_3 t, ?_⟩
  rw [mem_tile]
  intro a
  match a with
  | ⟨0, _⟩ =>
    show win1_3.index t (0 : Fin 2) * 1024 ≤ (i 0).val ∧ (i 0).val < win1_3.index t (0 : Fin 2) * 1024 + 1024
    omega
  | ⟨1, _⟩ =>
    show win1_3.index t (1 : Fin 2) * 1024 ≤ (i 1).val ∧ (i 1).val < win1_3.index t (1 : Fin 2) * 1024 + 1024
    omega

/-- The squared norm of a feature row is the sum of its squares: the zero word the sum starts from is the extended
    real 0. -/
theorem sq_eq_sum (N : FVec Ideal S8192x64 .f32) (r : Fin 8192) :
    PairForce.sq N r = ∑ k : Fin 64, N (ix2 r k) * N (ix2 r k) := by
  unfold PairForce.sq
  rw [Ideal.ofBits_zero_f32, zero_add]

/-- One entry of one tile. If row y₀ of the row tile is row i₀ of the feature array, row y₁ of the column tile is row
    i₁ of the feature array, and entry y of the weight tile is entry i of the weight array, then the body's term at y
    is the force at i. -/
theorem tile_entry (N : FVec Ideal S8192x64 .f32) (P : FVec Ideal S8192x8192 .f32)
    (xI xJ : Vec Ideal S1024x64 .f32) (xP : Vec Ideal S1024x1024 .f32) (y : S1024x1024.Idx) (i : S8192x8192.Idx)
    (hI : ∀ k : Fin 64, xI (ix2 (y 0) k) = N (ix2 (i 0) k))
    (hJ : ∀ k : Fin 64, xJ (ix2 (y 1) k) = N (ix2 (i 1) k))
    (hP : xP y = P i) :
    k1_pay1 xI xJ xP y = PairForce.force N P i := by
  obtain ⟨p, q, rfl⟩ : ∃ (p q : Fin 1024), y = ix2 p q := ⟨y 0, y 1, eq_ix2 y⟩
  obtain ⟨r, c, rfl⟩ : ∃ (r c : Fin 8192), i = ix2 r c := ⟨i 0, i 1, eq_ix2 i⟩
  have hI' : ∀ k : Fin 64, xI (ix2 p k) = N (ix2 r k) := hI
  have hJ' : ∀ k : Fin 64, xJ (ix2 q k) = N (ix2 c k) := hJ
  rw [pay_apply, PairForce.force_apply]
  unfold PairForce.forceAt PairForce.cross
  rw [sq_eq_sum, sq_eq_sum, hP]
  simp only [hI', hJ']

section
variable (V : (c : Dev nD) → (b : Ref sig .tc) → Buf (Elt Ideal) ((c : Thread nD τ).loc b))

/-- What grid point t writes back is its tile of the force. Entry y of the tile sits at array entry
    (block row × 1024 + y₀, block column × 1024 + y₁); row y₀ of the row tile is feature row block row × 1024 + y₀, row y₁
    of the column tile is feature row block column × 1024 + y₁, and the weight tile is the same tile of the weights. -/
theorem tile_flushed (c : Dev nD) (t : Fin cfg1.N) :
    (dat1 V c).flushed 3 t
      = ((cfg1.win 3).blk t).view.read (Elt Ideal) (PairForce.force (V c main_v1) (V c main_arg2)) := by
  show (cfg1.win 3).cut (cfg1.grid.coords t) ((dat1 V c).after 3 t) = _
  rw [after1_3]
  unfold out1
  rw [View.canon_unit_zero zero_offsets]
  simp only [View.ld_unit_zero (S := S1024x64) zero_offsets, View.ld_unit_zero (S := S1024x1024) zero_offsets]
  obtain ⟨e0, e1, e2, e3, e4, e5⟩ := tile_index_facts t
  funext j
  refine tile_entry (V c main_v1) (V c main_arg2) (iblk1 V c 0 t) (iblk1 V c 1 t) (iblk1 V c 2 t)
    ((cfg1.win 3).xinj (cfg1.grid.coords t) j) (((cfg1.win 3).blk t).view.emb j) ?_ ?_ ?_
  · intro k
    show V c main_v1 (((cfg1.win 0).blk t).view.emb (ix2 ((cfg1.win 3).xinj (cfg1.grid.coords t) j 0) k)) = _
    refine congrArg (V c main_v1) (funext fun a => Fin.ext ?_)
    match a with
    | ⟨0, _⟩ =>
      show win1_0.index t (0 : Fin 2) * 1024 + 1 * (j 0).val = win1_3.index t (0 : Fin 2) * 1024 + 1 * (j 0).val
      rw [e0]
    | ⟨1, _⟩ =>
      show win1_0.index t (1 : Fin 2) * 64 + 1 * k.val = k.val
      rw [e1]; omega
  · intro k
    show V c main_v1 (((cfg1.win 1).blk t).view.emb (ix2 ((cfg1.win 3).xinj (cfg1.grid.coords t) j 1) k)) = _
    refine congrArg (V c main_v1) (funext fun a => Fin.ext ?_)
    match a with
    | ⟨0, _⟩ =>
      show win1_1.index t (0 : Fin 2) * 1024 + 1 * (j 1).val = win1_3.index t (1 : Fin 2) * 1024 + 1 * (j 1).val
      rw [e2]
    | ⟨1, _⟩ =>
      show win1_1.index t (1 : Fin 2) * 64 + 1 * k.val = k.val
      rw [e3]; omega
  · show V c main_arg2 (((cfg1.win 2).blk t).view.emb ((cfg1.win 3).xinj (cfg1.grid.coords t) j)) = _
    refine congrArg (V c main_arg2) (funext fun a => Fin.ext ?_)
    match a with
    | ⟨0, _⟩ =>
      show win1_2.index t (0 : Fin 2) * 1024 + 1 * (j 0).val = win1_3.index t (0 : Fin 2) * 1024 + 1 * (j 0).val
      rw [e4]
    | ⟨1, _⟩ =>
      show win1_2.index t (1 : Fin 2) * 1024 + 1 * (j 1).val = win1_3.index t (1 : Fin 2) * 1024 + 1 * (j 1).val
      rw [e5]

end

/-- After the second kernel has run over its grid the force array is the specification's force of the feature array and
    the weight array the region read: every point writes back its tile of it, and the tiles cover the array. -/
theorem force_final (V : (c : Dev nD) → (b : Ref sig .tc) → Buf (Elt Ideal) ((c : Thread nD τ).loc b)) (c : Dev nD) :
    ((dat1 V c).arrAt 3 cfg1.N : S8192x8192.Idx → EReal)
      = PairForce.force (V c main_v1) (V c main_arg2) := by
  exact (dat1 V c).arrAt_eq_of_cover 3 (PairForce.force (V c main_v1) (V c main_arg2))
    (fun t _ => tile_flushed V c t) tiles_cover

end Cert.KernelIdeal.Hand

end
-- ==== Proof.KernelIdealValue.lean ====
/-
  The idealized kernel's two results as functions of the launch arrays.

  The first pallas_call reads the launched adjacency matrix, node features and weights, and the launched bias reshaped
  to a 1x64 row; the second reads the new-features array the first left and the launched distance weights. So the
  new-features array ends at the specification's array of the launch arrays, and the force array at the
  specification's force of that array and the distance weights.
-/
import proofs.«154171_j12197707120647_1_alg».proof.Proof.KernelIdealResults
import proofs.«154171_j12197707120647_1_alg».proof.Proof.KernelIdealNfValue
import proofs.«154171_j12197707120647_1_alg».proof.Proof.KernelIdealForceValue

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt Ideal) ℓ) (ρ : Dev nD → PrngReg)

/-- The new features as the specification's array of the launch arrays. -/
theorem nf_result (c : Dev nD) :
    ((dat0 (V1 m ρ) c).arrAt 4 cfg0.N : S8192x64.Idx → EReal)
      = PairForce.nf (m ((c : Thread nD τ).loc main_arg0)) (m ((c : Thread nD τ).loc main_arg1)) (m ((c : Thread nD τ).loc main_arg3))
          (shapeCast S1x64 (m ((c : Thread nD τ).loc main_arg4)) shapeCasts_S64_S1x64) := by
  rw [nf_final (V1 m ρ) c, V1_of m ρ c main_arg0 (by decide), V1_of m ρ c main_arg1 (by decide), V1_of m ρ c main_arg3 (by decide),
    V1_bias m ρ c]

/-- The force as the specification's force of the new features and the launched distance weights. -/
theorem force_result (c : Dev nD) :
    ((dat1 (V2 m ρ) c).arrAt 3 cfg1.N : S8192x8192.Idx → EReal)
      = PairForce.force (PairForce.nf (m ((c : Thread nD τ).loc main_arg0)) (m ((c : Thread nD τ).loc main_arg1)) (m ((c : Thread nD τ).loc main_arg3))
          (shapeCast S1x64 (m ((c : Thread nD τ).loc main_arg4)) shapeCasts_S64_S1x64)) (m ((c : Thread nD τ).loc main_arg2)) := by
  rw [force_final (V2 m ρ) c, V2_nf m ρ c, nf_result m ρ c, V2_weights m ρ c]

end Cert.KernelIdeal.Hand

end
-- ==== Proof.RefValue.lean ====
/-
  The reference program's two results, read one operation at a time, are the specification's arrays.

  The new features: two host matrix products (the second against the transposed weights) and the bias broadcast along
  the rows; entry (r, o) is Σ_k (Σ_j A(r, j)·X(j, k))·W(o, k) + b(o), the bias read as the 1x64 row a reshape of it is.
  The force: row sums of squares of the new features broadcast along rows and along columns, the features' product
  with their own transpose, and the pointwise tail (clamp at zero, guarded square root, the weight) — entry (r, c) is
  the specification's term of the new features' rows r and c.
-/
import proofs.«154171_j12197707120647_1_alg».proof.Proof.Gen.ReferenceIdeal.Read
import proofs.«154171_j12197707120647_1_alg».proof.Proof.Spec
import Idealize.ShloMosaic.Lib.ValueLayout

noncomputable section

namespace Cert.ReferenceIdeal.RefValue

open Cert.ReferenceIdeal Cert.ReferenceIdeal.Gen Cert.ReferenceIdeal.Read
open Idealize.ShloMosaic Idealize.ShloMosaic.ValueIdx

/-! ### The index maps of the reference's operations, at an index given by its coordinates -/

/-- The first product reads row r of its left operand … -/
theorem lidx_agg (r : Fin 8192) (k : Fin 128) (j : Fin 8192) : lidx_main_v0 (ix2 r k) j = ix2 r j :=
  funext fun a => Fin.ext (by match a with | ⟨0, _⟩ => rfl | ⟨1, _⟩ => rfl)
/-- … and column k of its right operand. -/
theorem ridx_agg (r : Fin 8192) (k : Fin 128) (j : Fin 8192) : ridx_main_v0 (ix2 r k) j = ix2 j k :=
  funext fun a => Fin.ext (by match a with | ⟨0, _⟩ => rfl | ⟨1, _⟩ => rfl)
/-- The transposed weights at (k, o) are the weights at (o, k). -/
theorem idx_wT (k : Fin 128) (o : Fin 64) : idx_main_v1 (ix2 k o) = ix2 o k :=
  funext fun a => Fin.ext (by match a with | ⟨0, _⟩ => rfl | ⟨1, _⟩ => rfl)
/-- The second product reads row r of the aggregate … -/
theorem lidx_lin (r : Fin 8192) (o : Fin 64) (k : Fin 128) : lidx_main_v2 (ix2 r o) k = ix2 r k :=
  funext fun a => Fin.ext (by match a with | ⟨0, _⟩ => rfl | ⟨1, _⟩ => rfl)
/-- … and column o of the transposed weights. -/
theorem ridx_lin (r : Fin 8192) (o : Fin 64) (k : Fin 128) : ridx_main_v2 (ix2 r o) k = ix2 k o :=
  funext fun a => Fin.ext (by match a with | ⟨0, _⟩ => rfl | ⟨1, _⟩ => rfl)
/-- The bias broadcast along the rows reads, at (r, o), the 1x64 row at (0, o) … -/
theorem idx_biasRows (r : Fin 8192) (o : Fin 64) : idx_main_v4 (ix2 r o) = ix2 (0 : Fin 1) o :=
  funext fun a => Fin.ext (by match a with | ⟨0, _⟩ => rfl | ⟨1, _⟩ => rfl)
/-- … which reads the bias vector at o. -/
theorem idx_biasRow (u : Fin 1) (o : Fin 64) : idx_main_v3 (ix2 u o) = ix1 o :=
  funext fun a => Fin.ext (by match a with | ⟨0, _⟩ => rfl)
/-- The row sum at r runs over the entries (r, k). -/
theorem idx_rowSum (r : Fin 8192) (k : Fin 64) : idx_main_v7 (ix1 r) k = ix2 r k :=
  funext fun a => Fin.ext (by match a with | ⟨0, _⟩ => rfl | ⟨1, _⟩ => rfl)
/-- The row sums as a column, broadcast along the columns: entry (r, c) reads the sum of row r. -/
theorem idx_sqRow (r c : Fin 8192) : idx_main_v8 (idx_main_v10 (ix2 r c)) = ix1 r :=
  funext fun a => Fin.ext (by match a with | ⟨0, _⟩ => rfl)
/-- The row sums as a row, broadcast along the rows: entry (r, c) reads the sum of row c. -/
theorem idx_sqCol (r c : Fin 8192) : idx_main_v9 (idx_main_v11 (ix2 r c)) = ix1 c :=
  funext fun a => Fin.ext (by match a with | ⟨0, _⟩ => rfl)
/-- The transposed features at (k, c) are the features at (c, k). -/
theorem idx_nfT (k : Fin 64) (c : Fin 8192) : idx_main_v13 (ix2 k c) = ix2 c k :=
  funext fun a => Fin.ext (by match a with | ⟨0, _⟩ => rfl | ⟨1, _⟩ => rfl)
/-- The features' product with their transpose reads row r of the features … -/
theorem lidx_cross (r c : Fin 8192) (k : Fin 64) : lidx_main_v14 (ix2 r c) k = ix2 r k :=
  funext fun a => Fin.ext (by match a with | ⟨0, _⟩ => rfl | ⟨1, _⟩ => rfl)
/-- … and column c of the transpose. -/
theorem ridx_cross (r c : Fin 8192) (k : Fin 64) : ridx_main_v14 (ix2 r c) k = ix2 k c :=
  funext fun a => Fin.ext (by match a with | ⟨0, _⟩ => rfl | ⟨1, _⟩ => rfl)

/-! ### The new features -/

/-- The first product at (r, k) is the aggregate Σ_j A(r, j)·X(j, k). -/
theorem aggregate_apply (x0 : (⟨S8192x8192, .f32⟩ : BufTy).Contents (Elt Ideal)) (x1 : (⟨S8192x128, .f32⟩ : BufTy).Contents (Elt Ideal))
    (r : Fin 8192) (k : Fin 128) : val_main_v0 (F := Ideal) x0 x1 (ix2 r k) = PairForce.agg x0 x1 r k := by
  rw [val_main_v0_apply]
  unfold PairForce.agg
  refine Finset.sum_congr rfl fun j _ => ?_
  rw [lidx_agg, ridx_agg]

/-- The second product at (r, o) is the aggregate's row r against the weights' row o. -/
theorem linear_apply (x0 : (⟨S8192x8192, .f32⟩ : BufTy).Contents (Elt Ideal)) (x1 : (⟨S8192x128, .f32⟩ : BufTy).Contents (Elt Ideal))
    (x3 : (⟨S64x128, .f32⟩ : BufTy).Contents (Elt Ideal)) (r : Fin 8192) (o : Fin 64) :
    val_main_v2 (F := Ideal) x0 x1 x3 (ix2 r o) = ∑ k : Fin 128, PairForce.agg x0 x1 r k * x3 (ix2 o k) := by
  rw [val_main_v2_apply]
  refine Finset.sum_congr rfl fun k _ => ?_
  rw [lidx_lin, ridx_lin, aggregate_apply, val_main_v1_apply, idx_wT]

/-- The broadcast bias at (r, o) is b(o), which is what the 1x64 reshape of the bias holds at (0, o). -/
theorem bias_apply (x4 : (⟨S64, .f32⟩ : BufTy).Contents (Elt Ideal)) (h : S64.ShapeCasts S1x64) (r : Fin 8192) (o : Fin 64) :
    val_main_v4 (F := Ideal) x4 (ix2 r o) = shapeCast S1x64 x4 h (ix2 (0 : Fin 1) o) := by
  rw [val_main_v4_apply, idx_biasRows, val_main_v3_apply, idx_biasRow, shapeCast_a_1a_apply]

/-- The reference's new features are the specification's, the bias read through its reshape to a 1x64 row. -/
theorem ref_nf (x0 : (⟨S8192x8192, .f32⟩ : BufTy).Contents (Elt Ideal)) (x1 : (⟨S8192x128, .f32⟩ : BufTy).Contents (Elt Ideal))
    (x3 : (⟨S64x128, .f32⟩ : BufTy).Contents (Elt Ideal)) (x4 : (⟨S64, .f32⟩ : BufTy).Contents (Elt Ideal)) (h : S64.ShapeCasts S1x64) :
    val_main_v5 (F := Ideal) x0 x1 x3 x4 = PairForce.nf x0 x1 x3 (shapeCast S1x64 x4 h) := by
  funext i
  obtain ⟨r, o, rfl⟩ : ∃ (r : Fin 8192) (o : Fin 64), i = ix2 r o := ⟨i 0, i 1, eq_ix2 i⟩
  rw [val_main_v5_apply, PairForce.nf_apply, linear_apply, bias_apply x4 h, Ideal.addf_def]
  rfl

/-! ### The force -/

/-- The row sum of squares at r is the squared norm of feature row r. -/
theorem rowSq_apply (x0 : (⟨S8192x8192, .f32⟩ : BufTy).Contents (Elt Ideal)) (x1 : (⟨S8192x128, .f32⟩ : BufTy).Contents (Elt Ideal))
    (x3 : (⟨S64x128, .f32⟩ : BufTy).Contents (Elt Ideal)) (x4 : (⟨S64, .f32⟩ : BufTy).Contents (Elt Ideal)) (r : Fin 8192) :
    val_main_v7 (F := Ideal) x0 x1 x3 x4 (ix1 r) = PairForce.sq (val_main_v5 (F := Ideal) x0 x1 x3 x4) r := by
  rw [val_main_v7_apply, val_main_cst_apply]
  unfold PairForce.sq
  refine congrArg (_ + ·) (Finset.sum_congr rfl fun k _ => ?_)
  rw [idx_rowSum, val_main_v6_apply, Ideal.mulf_def]

/-- The features' product with their transpose at (r, c) is the inner product of feature rows r and c. -/
theorem cross_apply (x0 : (⟨S8192x8192, .f32⟩ : BufTy).Contents (Elt Ideal)) (x1 : (⟨S8192x128, .f32⟩ : BufTy).Contents (Elt Ideal))
    (x3 : (⟨S64x128, .f32⟩ : BufTy).Contents (Elt Ideal)) (x4 : (⟨S64, .f32⟩ : BufTy).Contents (Elt Ideal)) (r c : Fin 8192) :
    val_main_v14 (F := Ideal) x0 x1 x3 x4 (ix2 r c) = PairForce.cross (val_main_v5 (F := Ideal) x0 x1 x3 x4) r c := by
  rw [val_main_v14_apply]
  unfold PairForce.cross
  refine Finset.sum_congr rfl fun k _ => ?_
  rw [lidx_cross, ridx_cross, val_main_v13_apply, idx_nfT]

/-- The clamped squared distance at (r, c): |nf_r|² + |nf_c|² − 2 nf_r·nf_c, clamped at zero. -/
theorem d2_apply (x0 : (⟨S8192x8192, .f32⟩ : BufTy).Contents (Elt Ideal)) (x1 : (⟨S8192x128, .f32⟩ : BufTy).Contents (Elt Ideal))
    (x3 : (⟨S64x128, .f32⟩ : BufTy).Contents (Elt Ideal)) (x4 : (⟨S64, .f32⟩ : BufTy).Contents (Elt Ideal)) (r c : Fin 8192) :
    val_main_v19 (F := Ideal) x0 x1 x3 x4 (ix2 r c)
      = PairForce.d2Of (PairForce.sq (val_main_v5 (F := Ideal) x0 x1 x3 x4) r) (PairForce.sq (val_main_v5 (F := Ideal) x0 x1 x3 x4) c)
          (PairForce.cross (val_main_v5 (F := Ideal) x0 x1 x3 x4) r c) := by
  rw [val_main_v19_apply, val_main_v17_apply, val_main_v12_apply, val_main_v10_apply, val_main_v8_apply, idx_sqRow,
    val_main_v11_apply, val_main_v9_apply, idx_sqCol, val_main_v16_apply, val_main_v15_apply, val_main_cst_0_apply,
    val_main_v18_apply, val_main_cst_1_apply, rowSq_apply, rowSq_apply, cross_apply]
  rfl

/-- The reference's force is the specification's force of the reference's new features and the weights. -/
theorem ref_force (x0 : (⟨S8192x8192, .f32⟩ : BufTy).Contents (Elt Ideal)) (x1 : (⟨S8192x128, .f32⟩ : BufTy).Contents (Elt Ideal))
    (x2 : (⟨S8192x8192, .f32⟩ : BufTy).Contents (Elt Ideal))
    (x3 : (⟨S64x128, .f32⟩ : BufTy).Contents (Elt Ideal)) (x4 : (⟨S64, .f32⟩ : BufTy).Contents (Elt Ideal)) :
    val_main_v27 (F := Ideal) x0 x1 x2 x3 x4 = PairForce.force (val_main_v5 (F := Ideal) x0 x1 x3 x4) x2 := by
  funext i
  obtain ⟨r, c, rfl⟩ : ∃ (r c : Fin 8192), i = ix2 r c := ⟨i 0, i 1, eq_ix2 i⟩
  rw [val_main_v27_apply, val_main_v26_apply, val_main_v24_apply, val_main_v23_apply, val_main_cst_4_apply,
    val_main_v25_apply, val_main_v22_apply, val_main_v21_apply, val_main_v20_apply, val_main_cst_2_apply,
    val_main_call0_v1_apply, val_main_call0_v0_apply, val_main_cst_3_apply,
    val_main_call1_v1_apply, val_main_call1_v0_apply, val_main_cst_5_apply, d2_apply, PairForce.force_apply]
  rfl

end Cert.ReferenceIdeal.RefValue

end
-- ==== Proof.lean ====
/-
  The certificate: the Pallas program (graph aggregation fused with a linear layer, then the pairwise Euclidean
  distances of the resulting features times a weight matrix) against its jnp reference, over the extended reals.

  Frames. The program is a host reshape followed by two pipelined kernel regions. Each region's body loads its input
  blocks whole, computes one pure term and stores it over the whole output block, so its proof data name every staging
  buffer's contents at every grid point; the second region reads the features array through two windows, which hold it
  in halves. The run threads the contents of the core's buffers from the launch through the host stretch and the two
  regions; the arguments are never written. The same argument, generic in the float instance, serves the word-level
  program and its idealization. The reference is a straight-line host program: its frame is its run with the results
  dropped.

  Values, at the ideal instance. Each region's write-backs tile its output array, so the array after the region is one
  function of the region's inputs: the new features are Σ_k (Σ_j A(r, j)·X(j, k))·W(o, k) + b(o) (a change of float
  format is the identity on the extended reals; both matrix products are plain finite sums), and the force is the
  distance term of the feature rows' squared norms and inner product, times the weight. The reference computes the same
  two terms, operation by operation. No law beyond commutativity and associativity of the sums is used, so the
  precondition is never opened.
-/
import proofs.«154171_j12197707120647_1_alg».proof.Defs
import proofs.«154171_j12197707120647_1_alg».proof.Proof.KernelResults
import proofs.«154171_j12197707120647_1_alg».proof.Proof.KernelIdealValue
import proofs.«154171_j12197707120647_1_alg».proof.Proof.RefValue
import proofs.«154171_j12197707120647_1_alg».proof.Proof.Gen.Kernel
import proofs.«154171_j12197707120647_1_alg».proof.Proof.Gen.KernelIdeal
import proofs.«154171_j12197707120647_1_alg».proof.Proof.Gen.ReferenceIdeal
import proofs.«154171_j12197707120647_1_alg».proof.Proof.Gen.ReferenceIdeal.Run
import proofs.«154171_j12197707120647_1_alg».proof.Proof.Gen.Pre_finite_inputs
import Idealize.ShloMosaic.Adequacy
import Idealize.ShloMosaic.Init

noncomputable section

namespace Cert.Proof

open Idealize.ShloMosaic Idealize.ShloMosaic.TcCoe Idealize.SL.Sem

/-- The word-level program runs to the end, faults nowhere and leaves its arguments unchanged. -/
theorem frame_kernel : Cert.frame_Kernel := fun m ρ _ => Cert.Kernel.Hand.frame (F := Bits) m ρ

/-- So does its idealization. -/
theorem frame_kernelIdeal : Cert.frame_KernelIdeal := fun m ρ _ => Cert.KernelIdeal.Hand.frame (F := Ideal) m ρ

/-- The reference's frame is its run with the results dropped. -/
theorem frame_reference : Cert.frame_ReferenceIdeal := fun m ρ _ =>
  (θ_run Cert.ReferenceIdeal.defs _ _).mono (fun _ h c => (h c).2.2) (Cert.ReferenceIdeal.Value.run (F := Ideal) m ρ)

/-- The ideal pass rewrote nothing: there is nothing to preserve. -/
theorem preserves : Cert.preserves_Kernel_KernelIdeal := trivial

/-- At the ideal instance both programs end with the specification's force and new features of the (agreeing)
    argument arrays. -/
theorem algebraic : Cert.algebraic_KernelIdeal_ReferenceIdeal := by
  intro m ρ m' ρ' _ hagree
  refine ⟨fun c => PairForce.force (PairForce.nf (m ((c.tc : Thread Cert.KernelIdeal.nD Cert.KernelIdeal.τ).loc Cert.KernelIdeal.main_arg0))
        (m ((c.tc : Thread Cert.KernelIdeal.nD Cert.KernelIdeal.τ).loc Cert.KernelIdeal.main_arg1))
        (m ((c.tc : Thread Cert.KernelIdeal.nD Cert.KernelIdeal.τ).loc Cert.KernelIdeal.main_arg3))
        (shapeCast Cert.KernelIdeal.S1x64 (m ((c.tc : Thread Cert.KernelIdeal.nD Cert.KernelIdeal.τ).loc Cert.KernelIdeal.main_arg4)) Cert.KernelIdeal.Gen.shapeCasts_S64_S1x64))
        (m ((c.tc : Thread Cert.KernelIdeal.nD Cert.KernelIdeal.τ).loc Cert.KernelIdeal.main_arg2)),
      fun c => PairForce.nf (m ((c.tc : Thread Cert.KernelIdeal.nD Cert.KernelIdeal.τ).loc Cert.KernelIdeal.main_arg0))
        (m ((c.tc : Thread Cert.KernelIdeal.nD Cert.KernelIdeal.τ).loc Cert.KernelIdeal.main_arg1))
        (m ((c.tc : Thread Cert.KernelIdeal.nD Cert.KernelIdeal.τ).loc Cert.KernelIdeal.main_arg3))
        (shapeCast Cert.KernelIdeal.S1x64 (m ((c.tc : Thread Cert.KernelIdeal.nD Cert.KernelIdeal.τ).loc Cert.KernelIdeal.main_arg4)) Cert.KernelIdeal.Gen.shapeCasts_S64_S1x64),
      ?_, ?_⟩
  · exact (θ_run Cert.KernelIdeal.defs _ _).mono (fun _ h c =>
      ⟨(h c).1.trans (Cert.KernelIdeal.Hand.force_result m ρ c), (h c).2.1.trans (Cert.KernelIdeal.Hand.nf_result m ρ c), (h c).2.2⟩)
      (Cert.KernelIdeal.Hand.run_main (F := Ideal) m ρ)
  · refine (θ_run Cert.ReferenceIdeal.defs _ _).mono (fun _ h c => ⟨(h c).1.trans ?_, (h c).2.1.trans ?_, (h c).2.2⟩)
      (Cert.ReferenceIdeal.Value.run (F := Ideal) m' ρ')
    · rw [Cert.ReferenceIdeal.Read.val_main_v27_eq, Cert.ReferenceIdeal.RefValue.ref_force,
        Cert.ReferenceIdeal.RefValue.ref_nf _ _ _ _ Cert.KernelIdeal.Gen.shapeCasts_S64_S1x64,
        (hagree c).1, (hagree c).2.1, (hagree c).2.2.1, (hagree c).2.2.2.1, (hagree c).2.2.2.2]
    · rw [Cert.ReferenceIdeal.Read.val_main_v5_eq, Cert.ReferenceIdeal.RefValue.ref_nf _ _ _ _ Cert.KernelIdeal.Gen.shapeCasts_S64_S1x64,
        (hagree c).1, (hagree c).2.1, (hagree c).2.2.2.1, (hagree c).2.2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_reference, preserves, algebraic⟩

end Cert.Proof

end
